-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S800x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel

variable [Facts]

def fn {F : FTy → Type} [FloatOps F] (main_arg0 : FVec F S16384x1000 .f32) (main_arg1 : FVec F S16384x1000 .f32) (main_arg2 : FVec F S16384x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_v9 : FVec F S16384x1000 .f32 := Host.absf main_arg2
  let main_cst_2 : FVec F S_ .f32 := constant S_ .f32 0x7F800000#32
  let main_v10 : FVec F S16384x1000 .f32 := broadcastInDim S16384x1000 ![] bcast_S_S16384x1000 main_cst_2
  let main_v11 : IVec S16384x1000 1 := cmpf .olt main_v9 main_v10
  let main_c_3 : IVec S_ 1 := constantI S_ 1 1#1
  let main_v12 : IVec S_ 1 := (fun x v => Host.reduce IntOp.andi x v reducesTo_S16384x1000_S_d0_1 h_S_) main_v11 main_c_3
  let main_v13 : IVec S_ 1 := andi main_v8 main_v12
  main_v13
-- ==== Kernel.lean ====
abbrev S16384x1000 : Shape := ⟨2, ![16384, 1000]⟩
abbrev S16000x1024 : Shape := ⟨2, ![16000, 1024]⟩
abbrev S2x1x10 : Shape := ⟨3, ![2, 1, 10]⟩
abbrev S800x1024 : Shape := ⟨2, ![800, 1024]⟩
abbrev S1x1x10 : Shape := ⟨3, ![1, 1, 10]⟩
abbrev S1024x1 : Shape := ⟨2, ![1024, 1]⟩
abbrev S800x1 : Shape := ⟨2, ![800, 1]⟩
abbrev S1x800x1 : Shape := ⟨3, ![1, 800, 1]⟩
abbrev S1 : Shape := ⟨1, ![1]⟩
abbrev S1x1x1 : Shape := ⟨3, ![1, 1, 1]⟩
abbrev S2x10 : Shape := ⟨2, ![2, 10]⟩
abbrev S_ : Shape := ⟨0, ![]⟩
abbrev S10 : Shape := ⟨1, ![10]⟩

abbrev nBuf : Space → Nat
  | .hbm => 36
  | .vmem => 10
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16000x1024, .f32⟩
  | .hbm, ⟨4, _⟩ => ⟨S16000x1024, .f32⟩
  | .hbm, ⟨5, _⟩ => ⟨S16000x1024, .f32⟩
  | .hbm, ⟨6, _⟩ => ⟨S2x1x10, .i32⟩
  | .hbm, ⟨7, _⟩ => ⟨S2x1x10, .f32⟩
  | .hbm, ⟨8, _⟩ => ⟨S2x10, .i32⟩
  | .hbm, ⟨9, _⟩ => ⟨S_, .i32⟩
  | .hbm, ⟨10, _⟩ => ⟨S10, .i32⟩
  | .hbm, ⟨11, _⟩ => ⟨S10, .f32⟩
  | .hbm, ⟨12, _⟩ => ⟨S2x10, .f32⟩
  | .hbm, ⟨13, _⟩ => ⟨S_, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .i1⟩
  | .hbm, ⟨18, _⟩ => ⟨S10, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S10, .f32⟩
  | .hbm, ⟨28, _⟩ => ⟨S10, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S800x1024, .f32⟩
  | .local _ .vmem, ⟨1, _⟩ => ⟨S800x1024, .f32⟩
  | .local _ .vmem, ⟨2, _⟩ => ⟨S800x1024, .f32⟩
  | .local _ .vmem, ⟨3, _⟩ => ⟨S800x1024, .f32⟩
  | .local _ .vmem, ⟨4, _⟩ => ⟨S800x1024, .f32⟩
  | .local _ .vmem, ⟨5, _⟩ => ⟨S800x1024, .f32⟩
  | .local _ .vmem, ⟨6, _⟩ => ⟨S1x1x10, .i32⟩
  | .local _ .vmem, ⟨7, _⟩ => ⟨S1x1x10, .i32⟩
  | .local _ .vmem, ⟨8, _⟩ => ⟨S1x1x10, .f32⟩
  | .local _ .vmem, ⟨9, _⟩ => ⟨S1x1x10, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S800x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S800x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x10 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x1000_S16000x1024 : S16384x1000.ShapeCasts S16000x1024
  inb_S1x1x10_S1x1x10_0_0_0 : ∀ a, (![0, 0, 0] : Fin 3 → Nat) a + S1x1x10.size a ≤ S1x1x10.size a
  h_S1x1x10 : 0 < S1x1x10.numel
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  bitsLt_bf16_f32 : FTy.bits .bf16 < FTy.bits .f32
  natLt_1_32 : 1 < 32
  shapeCasts_S800x1_S1x800x1 : S800x1.ShapeCasts S1x800x1
  reduces_S1x800x1_S1 : S1x800x1.Reduces [1, 2] S1
  shapeCasts_S1_S1x1x1 : S1.ShapeCasts S1x1x1
  inpos_S1x1x1_p0_0_0 : ∀ a, (![0, 0, 0] : Fin 3 → Nat) a < S1x1x1.size a
  concatenates_S1x1x1_S1x1x1_S1x1x1_S1x1x1_S1x1x1_S1x1x1_S1x1x1_S1x1x1_S1x1x1_S1x1x1_S1x1x10_d2 : Shape.Concatenates [S1x1x1, S1x1x1, S1x1x1, S1x1x1, S1x1x1, S1x1x1, S1x1x1, S1x1x1, S1x1x1, S1x1x1] S1x1x10 2
  shapeCasts_S1x1x10_S1x1x10 : S1x1x10.ShapeCasts S1x1x10
  shapeCasts_S2x1x10_S2x10 : S2x1x10.ShapeCasts S2x10
  reducesTo_S2x10_S10_d0 : S2x10.ReducesTo [0] S10
  h_S_ : 0 < S_.numel
  bcast_S_S10 : S_.BroadcastsInDim S10 (![] : Fin 0 → Fin S10.rank)
  reducesTo_S10_S_d0 : S10.ReducesTo [0] S_
  dot_S800x1024_S1024x1_S800x1_1_0_0_1_n_n_wf : DotDims.WF S800x1024 S1024x1 S800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x1024.size a ≤ S16000x1024.size a
  hwx0_0 : ∀ i : grid0.Coords, EltTy.bits .f32 = 32 ∨ (Rect.block (s := S16000x1024) S800x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1024.size a ≤ S16000x1024.size a
  hwx0_1 : ∀ i : grid0.Coords, EltTy.bits .f32 = 32 ∨ (Rect.block (s := S16000x1024) S800x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x1024.size a ≤ S16000x1024.size a
  hwx0_2 : ∀ i : grid0.Coords, EltTy.bits .f32 = 32 ∨ (Rect.block (s := S16000x1024) S800x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10.size a ≤ S2x1x10.size a
  hwx0_3 : ∀ i : grid0.Coords, EltTy.bits .i32 = 32 ∨ (Rect.block (s := S2x1x10) S1x1x10.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x10.size a ≤ S2x1x10.size a
  hwx0_4 : ∀ i : grid0.Coords, EltTy.bits .f32 = 32 ∨ (Rect.block (s := S2x1x10) S1x1x10.size (cc0_transform_4 i) (hinb0_4 i)).WholeWords (EltTy.packing .f32)

variable [Facts₀]

def dot_S800x1024_S1024x1_S800x1_1_0_0_1_n_n : DotDims S800x1024 S1024x1 S800x1 where
  lhsContracting := [1]
  rhsContracting := [0]
  lhsNonContracting := [0]
  rhsNonContracting := [1]
  lhsBatch := []
  rhsBatch := []
  wf := dot_S800x1024_S1024x1_S800x1_1_0_0_1_n_n_wf

abbrev win0_0 : Pipeline.Window sig grid0 :=
  Pipeline.Window.ofSpec (Memref.whole main_v0) S800x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S800x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S800x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x10.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S_ : Shape := ⟨0, ![]⟩
abbrev S16384000 : Shape := ⟨1, ![16384000]⟩
abbrev S10 : Shape := ⟨1, ![10]⟩
abbrev S16384000x1 : Shape := ⟨2, ![16384000, 1]⟩
abbrev S16384x1000x1 : Shape := ⟨3, ![16384, 1000, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16384x1000, .f32⟩
  | .hbm, ⟨4, _⟩ => ⟨S16384x1000, .f32⟩
  | .hbm, ⟨5, _⟩ => ⟨S_, .f32⟩
  | .hbm, ⟨6, _⟩ => ⟨S16384x1000, .f32⟩
  | .hbm, ⟨7, _⟩ => ⟨S16384x1000, .f32⟩
  | .hbm, ⟨8, _⟩ => ⟨S_, .f32⟩
  | .hbm, ⟨9, _⟩ => ⟨S16384x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S_, .f32⟩
  | .hbm, ⟨14, _⟩ => ⟨S16384x1000, .f32⟩
  | .hbm, ⟨15, _⟩ => ⟨S16384x1000, .i1⟩
  | .hbm, ⟨16, _⟩ => ⟨S16384x1000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384x1000, .f32⟩
  | .hbm, ⟨23, _⟩ => ⟨S16384x1000, .f32⟩
  | .hbm, ⟨24, _⟩ => ⟨S16384x1000, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S16384x1000, .i32⟩
  | .hbm, ⟨29, _⟩ => ⟨S16384x1000, .i32⟩
  | .hbm, ⟨30, _⟩ => ⟨S_, .i32⟩
  | .hbm, ⟨31, _⟩ => ⟨S16384x1000, .i32⟩
  | .hbm, ⟨32, _⟩ => ⟨S16384x1000, .i32⟩
  | .hbm, ⟨33, _⟩ => ⟨S16384000, .i1⟩
  | .hbm, ⟨34, _⟩ => ⟨S16384000, .f32⟩
  | .hbm, ⟨35, _⟩ => ⟨S16384000, .i32⟩
  | .hbm, ⟨36, _⟩ => ⟨S_, .f32⟩
  | .hbm, ⟨37, _⟩ => ⟨S10, .f32⟩
  | .hbm, ⟨38, _⟩ => ⟨S16384000x1, .i32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S10, .f32⟩
  | .hbm, ⟨44, _⟩ => ⟨S_, .f32⟩
  | .hbm, ⟨45, _⟩ => ⟨S_, .f32⟩
  | .hbm, ⟨46, _⟩ => ⟨S_, .i32⟩
  | .hbm, ⟨47, _⟩ => ⟨S16384x1000, .i32⟩
  | .hbm, ⟨48, _⟩ => ⟨S16384x1000, .i1⟩
  | .hbm, ⟨49, _⟩ => ⟨S_, .i32⟩
  | .hbm, ⟨50, _⟩ => ⟨S16384x1000, .i32⟩
  | .hbm, ⟨51, _⟩ => ⟨S16384x1000, .i32⟩
  | .hbm, ⟨52, _⟩ => ⟨S16384x1000, .i32⟩
  | .hbm, ⟨53, _⟩ => ⟨S16384x1000x1, .i32⟩
  | .hbm, ⟨54, _⟩ => ⟨S16384x1000, .f32⟩
  | .hbm, ⟨55, _⟩ => ⟨S_, .f32⟩
  | .hbm, ⟨56, _⟩ => ⟨S16384x1000, .f32⟩
  | .hbm, ⟨57, _⟩ => ⟨S16384x1000, .i1⟩
  | .hbm, ⟨58, _⟩ => ⟨S16384x1000, .i1⟩
  | .hbm, ⟨59, _⟩ => ⟨S_, .f32⟩
  | .hbm, ⟨60, _⟩ => ⟨S16384x1000, .f32⟩
  | .hbm, ⟨61, _⟩ => ⟨S16384x1000, .f32⟩
  | .hbm, ⟨62, _⟩ => ⟨S16384x1000, .f32⟩
  | .hbm, ⟨63, _⟩ => ⟨S16384x1000, .f32⟩
  | .hbm, ⟨64, _⟩ => ⟨S_, .f32⟩
  | .hbm, ⟨65, _⟩ => ⟨S_, .f32⟩
  | .hbm, ⟨66, _⟩ => ⟨S16384x1000, .f32⟩
  | .hbm, ⟨67, _⟩ => ⟨S16384x1000, .f32⟩
  | .hbm, ⟨68, _⟩ => ⟨S_, .f32⟩
  | .hbm, ⟨69, _⟩ => ⟨S_, .f32⟩
  | .hbm, ⟨70, _⟩ => ⟨S16384x1000, .f32⟩
  | .hbm, ⟨71, _⟩ => ⟨S16384x1000, .f32⟩
  | .hbm, ⟨72, _⟩ => ⟨S_, .f32⟩
  | .hbm, ⟨73, _⟩ => ⟨S16384x1000, .f32⟩
  | .hbm, ⟨74, _⟩ => ⟨S16384x1000, .f32⟩
  | .hbm, ⟨75, _⟩ => ⟨S16384x1000, .f32⟩
  | .hbm, ⟨76, _⟩ => ⟨S16384x1000, .f32⟩
  | .hbm, ⟨77, _⟩ => ⟨S16384x1000, .i1⟩
  | .hbm, ⟨78, _⟩ => ⟨S16384x1000, .f32⟩
  | .hbm, ⟨79, _⟩ => ⟨S16384x1000, .f32⟩
  | .hbm, ⟨80, _⟩ => ⟨S16384x1000, .f32⟩
  | .hbm, ⟨81, _⟩ => ⟨S16384x1000, .f32⟩
  | .hbm, ⟨82, _⟩ => ⟨S16384x1000, .f32⟩
  | .hbm, ⟨83, _⟩ => ⟨S16384x1000, .f32⟩
  | .hbm, ⟨84, _⟩ => ⟨S16384x1000, .f32⟩
  | .hbm, ⟨85, _⟩ => ⟨S16384x1000, .f32⟩
  | .hbm, ⟨86, _⟩ => ⟨S16384x1000, .f32⟩
  | .hbm, ⟨87, _⟩ => ⟨S16384x1000, .f32⟩
  | .hbm, ⟨88, _⟩ => ⟨S16384x1000, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_c_5 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_call1_v0 : Ref sig .tc := ⟨.hbm, 65, rfl⟩
abbrev main_call1_v1 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_cst_17 : Ref sig .tc := ⟨.hbm, 92, rfl⟩
abbrev main_v63 : Ref sig .tc := ⟨.hbm, 93, rfl⟩

abbrev nD : Nat := 1
abbrev τ : Topo := Topo.v7x

variable {F : FTy → Type} [FloatOps F]

class Facts₀ : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  shapeCasts_S16384x1000_S16384000 : S16384x1000.ShapeCasts S16384000
  bcast_S_S10 : S_.BroadcastsInDim S10 (![] : Fin 0 → Fin S10.rank)
  bcast_S16384000_S16384000x1_0 : S16384000.BroadcastsInDim S16384000x1 (![0] : Fin 1 → Fin S16384000x1.rank)
  reducesTo_S10_S_d0 : S10.ReducesTo [0] S_
  bcast_S16384x1000_S16384x1000x1_0_1 : S16384x1000.BroadcastsInDim S16384x1000x1 (![0, 1] : Fin 2 → Fin S16384x1000x1.rank)
  scatter_S10_S16384000x1_S16384000_n_0_0_1_wf : ScatterDims.WF S10 S16384000x1 S16384000 [] [0] [0] 1
  gather_S10_S16384x1000x1_S16384x1000_n_0_n_n_0_2_1_wf : GatherDims.WF S10 S16384x1000x1 S16384x1000 [] [0] [] [0] [] 2 ![1]

variable [Facts₀]

def scatter_S10_S16384000x1_S16384000_n_0_0_1 : ScatterDims S10 S16384000x1 S16384000 where
  updateWindowDims := []
  insertedWindowDims := [0]
  scatterDimsToOperandDims := [0]
  indexVectorDim := 1
  wf := scatter_S10_S16384000x1_S16384000_n_0_0_1_wf
def gather_S10_S16384x1000x1_S16384x1000_n_0_n_n_0_2_1 : GatherDims S10 S16384x1000x1 S16384x1000 where
  offsetDims := []
  collapsedSliceDims := [0]
  operandBatchingDims := []
  startIndicesBatchingDims := []
  startIndexMap := [0]
  indexVectorDim := 2
  sliceSizes := ![1]
  wf := gather_S10_S16384x1000x1_S16384x1000_n_0_n_n_0_2_1_wf

class Facts : Prop extends Facts₀ where

variable [Facts]
-- ==== Proof.Chains.lean ====
/-
  One bin's reductions, as the kernel body writes them.

  For the selector array s of a tile [800, 1024] and a bin word b: the mask s = b; its count, the mask as 0/1
  numbers summed along each row by a product with the all-ones column, the row sums summed, and the total converted
  to a 32-bit integer; and the bin's cross-entropy sum, the same two-stage sum of a high and a low part of the cross
  entropy, each kept where the mask holds and zero elsewhere. The body computes these ten times, once per bin.
-/
import proofs.«426658_j61873298866306_3_alg».proof.Proof.Gen.KernelIdeal.Skeleton

noncomputable section

namespace Cert.KernelIdeal.Tile

open Idealize.ShloMosaic Idealize.SL.Sem Cert.KernelIdeal Cert.KernelIdeal.Gen

variable {F : FTy → Type} [FloatOps F]

/-- The sum of a column [800, 1] of row sums, as a one-entry array. -/
def rowSumAll (v : FVec F S800x1 .f32) : FVec F S1x1x1 .f32 :=
  broadcast S1x1x1 (extractAt ![0, 0, 0]
    (shapeCast S1x1x1 (multiReduction .add [1, 2] S1 (shapeCast S1x800x1 v shapeCasts_S800x1_S1x800x1) 0x00000000#32
      reduces_S1x800x1_S1 (.inl rfl) rfl) shapeCasts_S1_S1x1x1) inpos_S1x1x1_p0_0_0)

/-- The all-ones column [1024, 1]. -/
def onesCol : FVec F S1024x1 .bf16 := broadcast S1024x1 (Scalar.ofBits .bf16 0x3F80#16)

/-- Row sums of a tile: its product with the all-ones column, accumulated from zero. -/
def laneSum (v : FVec F S800x1024 .bf16) : FVec F S800x1 .f32 :=
  matmul dot_S800x1024_S1024x1_S800x1_1_0_0_1_n_n none v (onesCol (F := F)) (constant S800x1 .f32 0x00000000#32)

/-- The mask of bin b. -/
def binMask (b : BitVec 32) (s : IVec S800x1024 32) : IVec S800x1024 1 := cmpi .eq s (broadcast S800x1024 b)

/-- The zero tile. -/
def zeroBf : FVec F S800x1024 .bf16 := broadcast S800x1024 (Scalar.ofBits .bf16 0x0000#16)

/-- Bin b's count in the tile, as a 32-bit integer. -/
def binCnt (b : BitVec 32) (s : IVec S800x1024 32) : IVec S1x1x1 32 :=
  fptosi 32 (rowSumAll (F := F) (laneSum
    (truncf .bf16 (sitofp .f32 (extui 32 (binMask b s) natLt_1_32) : FVec F S800x1024 .f32) bitsLt_bf16_f32)))

/-- Bin b's cross-entropy sum in the tile, from the high and the low part. -/
def binBce (b : BitVec 32) (s : IVec S800x1024 32) (hi lo : FVec F S800x1024 .bf16) : FVec F S1x1x1 .f32 :=
  rowSumAll (addf (laneSum (select (binMask b s) hi (zeroBf (F := F)))) (laneSum (select (binMask b s) lo (zeroBf (F := F)))))

/-- The tile's selector array, high part and low part, of its three input blocks. -/
def selV (x0 x1 x2 : Vec F S800x1024 .f32) : IVec S800x1024 32 := k0_pay7 x0 x1 x2
def bceHi (x0 x1 : Vec F S800x1024 .f32) : FVec F S800x1024 .bf16 := k0_pay9 x0 x1
def bceLo (x0 x1 : Vec F S800x1024 .f32) : FVec F S800x1024 .bf16 := k0_pay11 (k0_pay10 x0 x1)

end Cert.KernelIdeal.Tile

end
-- ==== Proof.Elem.lean ====
/-
  The per-element functions of the gradient-harmonised classification loss, at the extended reals.

  For a logit x, a target t and a label weight w:  the gradient magnitude g = |σ(x) − t| with σ the logistic
  function; the element's bin, the integer ⌊10·g⌋ clipped into 0 … 9, as a 32-bit word; validity, w > 0, as a
  one-bit word; the selector, the bin of a valid element and the out-of-range word 10 of an invalid one; and the
  binary cross entropy with logits, softplus(x) − x·t, softplus written as jnp.logaddexp(0, x) lowers:
  max(0, x) + log1p(exp(−|0 − x|)), behind a test (0 − x) ≠ (0 − x) that no extended real passes.
-/
import Idealize.ShloMosaic.PureOps.Ideal
import Idealize.ShloMosaic.PureOps.Ideal.Laws
import Idealize.ShloMosaic.Lib.ValueIdx

noncomputable section

namespace Cert.Ghm

open Idealize.ShloMosaic

/-- The words 0.0, 1.0 and 10.0 of the 32-bit format, as extended reals. -/
abbrev z32 : EReal := Ideal.ofBits .f32 0x00000000#32
abbrev one32 : EReal := Ideal.ofBits .f32 0x3F800000#32
abbrev ten32 : EReal := Ideal.ofBits .f32 0x41200000#32

/-- g = |σ(x) − t|, the absolute value as max(a, −a). -/
def gmag (x t : EReal) : EReal := max (Ideal.logistic x - t) (-(Ideal.logistic x - t))

/-- The bin word: 10·g truncated toward zero, then clipped into 0 … 9. -/
def binW (x t : EReal) : BitVec 32 := IntOp.minsi 9#32 (IntOp.maxsi 0#32 (Ideal.fptosi 32 (gmag x t * ten32)))

/-- Validity: w > 0. -/
def vld (w : EReal) : BitVec 1 := Ideal.cmp .ogt w z32

/-- The selector: the bin of a valid element, the word 10 of an invalid one. -/
def sel (x t w : EReal) : BitVec 32 := Scalar.select (vld w) (binW x t) 10#32

/-- softplus as logaddexp(0, x) lowers. -/
def softplus (x : EReal) : EReal :=
  Scalar.select (Ideal.cmp .one (z32 - x) (z32 - x)) (z32 + x)
    (max z32 x + Ideal.log1p (Ideal.exp (z32 - max (z32 - x) (-(z32 - x)))))

/-- Binary cross entropy with logits. -/
def bce (x t : EReal) : EReal := softplus x - x * t

theorem z32_eq : z32 = 0 := Ideal.ofBits_zero_f32
theorem one32_eq : one32 = ((1 : ℝ) : EReal) := by
  show Ideal.ofBits .f32 0x3F800000#32 = ((1 : ℝ) : EReal)
  simp [Ideal.ofBits, Ideal.ieee, -EReal.coe_mul]
  norm_num

/-- Clipping any 32-bit word, read signed, into 0 … 9 leaves one of the ten words 0 … 9: below zero the
    maximum with 0 is 0, above nine the minimum with 9 is 9, and in between the word is its own value. -/
private theorem clip_range (w : BitVec 32) :
    ∃ k : Fin 10, IntOp.minsi 9#32 (IntOp.maxsi 0#32 w) = BitVec.ofNat 32 k.val := by
  unfold IntOp.minsi IntOp.maxsi
  by_cases h1 : w.slt 0#32 = true
  · rw [if_pos h1]
    exact ⟨0, by decide⟩
  · rw [if_neg h1]
    by_cases h2 : (9#32).slt w = true
    · rw [if_pos h2]
      exact ⟨9, rfl⟩
    · rw [if_neg h2]
      rw [BitVec.slt_iff_toInt_lt] at h1 h2
      have e0 : (0#32 : BitVec 32).toInt = 0 := by decide
      have e9 : (9#32 : BitVec 32).toInt = 9 := by decide
      rw [e0] at h1
      rw [e9] at h2
      have hlt : w.toNat < 10 := by
        rw [BitVec.toInt_eq_toNat_cond] at h1 h2
        split at h1 <;> omega
      exact ⟨⟨w.toNat, hlt⟩, by simp⟩

/-- The bin word is one of 0 … 9. -/
theorem binW_range (x t : EReal) : ∃ k : Fin 10, binW x t = BitVec.ofNat 32 k.val := clip_range _

/-- The bin as a number below 10. -/
def binK (x t : EReal) : Fin 10 := ⟨(binW x t).toNat % 10, Nat.mod_lt _ (by decide)⟩

theorem binW_eq_binK (x t : EReal) : binW x t = BitVec.ofNat 32 (binK x t).val := by
  obtain ⟨k, hk⟩ := binW_range x t
  have hk' : (binW x t).toNat % 10 = k.val := by
    rw [hk, BitVec.toNat_ofNat]
    have := k.isLt
    omega
  show binW x t = BitVec.ofNat 32 ((binW x t).toNat % 10)
  rw [hk']
  exact hk

/-- The words 0 … 9 are distinct. -/
theorem ofNat_inj10 (a b : Fin 10) : BitVec.ofNat 32 a.val = BitVec.ofNat 32 b.val ↔ a = b := by
  revert a b
  decide

/-- The word 10 is none of the words 0 … 9. -/
private theorem ten_ne (k : Fin 10) : (10#32 : BitVec 32) ≠ BitVec.ofNat 32 k.val := by
  revert k
  decide

/-- The selector is bin k exactly for a valid element whose bin is k. -/
theorem sel_eq_iff (x t w : EReal) (k : Fin 10) :
    sel x t w = BitVec.ofNat 32 k.val ↔ vld w = 1#1 ∧ binK x t = k := by
  show (if vld w = 1#1 then binW x t else 10#32) = BitVec.ofNat 32 k.val ↔ vld w = 1#1 ∧ binK x t = k
  by_cases hv : vld w = 1#1
  · rw [if_pos hv, binW_eq_binK, ofNat_inj10]
    exact ⟨fun h => ⟨hv, h⟩, fun h => h.2⟩
  · rw [if_neg hv]
    exact ⟨fun h => absurd h (ten_ne k), fun h => absurd h.1 hv⟩

/-- The inclusion of the reals is monotone, so it commutes with the maximum. -/
private theorem coe_max_coe (a b : ℝ) : max (a : EReal) (b : EReal) = ((max a b : ℝ) : EReal) :=
  (EReal.coe_strictMono.monotone.map_max).symm

/-- On real logit and target the cross entropy is a real number. -/
theorem bce_real (x t : ℝ) : ∃ r : ℝ, bce (x : EReal) (t : EReal) = (r : EReal) := by
  refine ⟨max 0 x + Real.log (1 + Real.exp (0 - max (0 - x) (-(0 - x)))) - x * t, ?_⟩
  have hc : Ideal.cmp .one (z32 - (x : EReal)) (z32 - (x : EReal)) = 0#1 := by simp [Ideal.cmp]
  have hpos : ¬ (1 + Real.exp (0 - max (0 - x) (-(0 - x))) ≤ 0) := by
    have := Real.exp_pos (0 - max (0 - x) (-(0 - x)))
    linarith
  unfold bce softplus
  rw [hc]
  show (if (0#1 : BitVec 1) = 1 then _ else _) - _ = _
  rw [if_neg (by decide), z32_eq]
  rw [← EReal.coe_zero, ← EReal.coe_sub, ← EReal.coe_neg, coe_max_coe, coe_max_coe, ← EReal.coe_sub,
    Ideal.exp_coe, Ideal.log1p, ← EReal.coe_one, ← EReal.coe_add, Ideal.log_coe, if_neg hpos, ← EReal.coe_add,
    ← EReal.coe_mul, ← EReal.coe_sub]

/-- Validity read as a number is 0 or 1: the count of the element. -/
theorem vld_toNat (w : EReal) : (vld w).toNat = if vld w = 1#1 then 1 else 0 := by
  generalize vld w = c
  rcases BitVec.eq_zero_or_eq_one c with rfl | rfl <;> decide

end Cert.Ghm

end
-- ==== Proof.Algebra.lean ====
/-
  The loss from per-bin aggregates: the two closing formulas and their equality.

  Over a finite set of elements e with a validity bit v e, a bin bk e < 10 and a real cross entropy ℓ e, let
  c k be the number of valid elements of bin k and S k the sum of ℓ over them. One program weights every element,
  w e = (tot / max(c (bk e), 1)) / max(n, 1) for a valid element of a non-empty bin and 0 otherwise, with tot the
  number of valid elements (at least 1) and n the number of non-empty bins, and returns (Σ w e · ℓ e) / tot; the
  other returns (Σ over non-empty bins of S k / max(c k, 1)) / max(n, 1). Over the reals tot cancels and the
  element sum regroups by bin, so the two agree; all quantities being real, the extended-real operations are the
  real ones.
-/
import proofs.«426658_j61873298866306_3_alg».proof.Proof.Elem
import Mathlib.Algebra.BigOperators.Group.Finset.Basic

noncomputable section

open scoped BigOperators

namespace Cert.Ghm

open Idealize.ShloMosaic

section Agg
variable {E : Type} [Fintype E]

/-- The number of valid elements of bin k. -/
def cntN (v : E → BitVec 1) (bk : E → Fin 10) (k : Fin 10) : ℕ :=
  (Finset.univ.filter (fun e => v e = 1#1 ∧ bk e = k)).card

/-- The sum of ℓ over the valid elements of bin k. -/
def bsum (v : E → BitVec 1) (bk : E → Fin 10) (ℓ : E → EReal) (k : Fin 10) : EReal :=
  ∑ e, if v e = 1#1 ∧ bk e = k then ℓ e else 0

/-- The closing formula over per-bin counts and sums (the kernel's host epilogue). -/
def kerLoss (cnt : Fin 10 → EReal) (S : Fin 10 → EReal) : EReal :=
  Ideal.div
    (z32 + ∑ k, Scalar.select (Ideal.cmp .ogt (cnt k) z32) (Ideal.div (S k) (max (cnt k) one32)) z32)
    (max (z32 + ∑ k, (((Ideal.cmp .ogt (cnt k) z32).toNat : ℝ) : EReal)) one32) * one32

/-- The closing formula over per-element weights (the reference), C the per-bin counts it has gathered. -/
def refLoss (v : E → BitVec 1) (bk : E → Fin 10) (ℓ : E → EReal) (C : Fin 10 → EReal) : EReal :=
  Ideal.div
    (z32 + ∑ e,
      Ideal.div
        (Scalar.select (IntOp.andi (v e) (Ideal.cmp .ogt (C (bk e)) z32))
          (Ideal.div (max (z32 + ∑ e', (((v e').toNat : ℝ) : EReal)) one32) (max (C (bk e)) one32)) z32)
        (max (z32 + ∑ k, (((Ideal.cmp .ogt (C k) z32).toNat : ℝ) : EReal)) one32)
      * ℓ e)
    (max (z32 + ∑ e', (((v e').toNat : ℝ) : EReal)) one32) * one32

/-! ### Coercions: every quantity in the two formulas is the image of a real number -/

/-- A finite sum of images of reals is the image of the real sum. -/
private theorem coe_sum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The larger of two images is the image of the larger. -/
private theorem coe_max (a b : ℝ) : max ((a : ℝ) : EReal) ((b : ℝ) : EReal) = ((max a b : ℝ) : EReal) :=
  (EReal.coe_strictMono.monotone.map_max).symm

private theorem max_one_ne_zero (x : ℝ) : max x 1 ≠ 0 :=
  ne_of_gt (lt_of_lt_of_le one_pos (le_max_right x 1))

private theorem ite_coe (p : Prop) [Decidable p] (a : ℝ) :
    (if p then ((a : ℝ) : EReal) else 0) = ((if p then a else 0 : ℝ) : EReal) := by
  split_ifs <;> simp

/-- The test "c > 0" on the image of a real is the real test. -/
private theorem cmp_ogt_coe (c : ℝ) :
    Ideal.cmp .ogt ((c : ℝ) : EReal) z32 = BitVec.ofBool (decide (0 < c)) := by
  rw [z32_eq]
  have h : decide ((0 : EReal) < ((c : ℝ) : EReal)) = decide (0 < c) := decide_eq_decide.mpr EReal.coe_pos
  show BitVec.ofBool (decide ((0 : EReal) < ((c : ℝ) : EReal))) = _
  rw [h]

private theorem select_decide {α : Type} (p : Prop) [Decidable p] (x y : α) :
    Scalar.select (BitVec.ofBool (decide p)) x y = if p then x else y := by
  by_cases h : p <;> simp [Scalar.select, h]

private theorem andi_select_decide {α : Type} (b : BitVec 1) (p : Prop) [Decidable p] (x y : α) :
    Scalar.select (IntOp.andi b (BitVec.ofBool (decide p))) x y = if b = 1#1 ∧ p then x else y := by
  rcases BitVec.eq_zero_or_eq_one b with hb | hb <;> subst hb <;> by_cases h : p <;>
    simp [Scalar.select, IntOp.andi, h]

/-- The denominators: max(0 + Σ x, 1) over reals. -/
private theorem denom_coe {ι : Type} [Fintype ι] (x : ι → ℝ) :
    max (z32 + ∑ i, ((x i : ℝ) : EReal)) one32 = ((max (∑ i, x i) 1 : ℝ) : EReal) := by
  rw [z32_eq, one32_eq, zero_add, coe_sum, coe_max]

/-- The per-bin formula on real counts and sums is the image of a real. -/
private theorem kerLoss_coe (c S : Fin 10 → ℝ) :
    kerLoss (fun k => ((c k : ℝ) : EReal)) (fun k => ((S k : ℝ) : EReal))
      = (((∑ k, if 0 < c k then S k * (1 / max (c k) 1) else 0)
          * (1 / max (∑ k, (((Ideal.cmp .ogt ((c k : ℝ) : EReal) z32).toNat : ℝ))) 1) * 1 : ℝ) : EReal) := by
  have hterm : ∀ k, Scalar.select (Ideal.cmp .ogt ((c k : ℝ) : EReal) z32)
        (Ideal.div ((S k : ℝ) : EReal) (max ((c k : ℝ) : EReal) one32)) z32
      = (((if 0 < c k then S k * (1 / max (c k) 1) else 0 : ℝ)) : EReal) := by
    intro k
    rw [cmp_ogt_coe, select_decide, one32_eq, coe_max, Ideal.div_coe (max_one_ne_zero _), ← EReal.coe_mul,
      z32_eq, ite_coe]
  unfold kerLoss
  simp only [hterm]
  rw [denom_coe, coe_sum, z32_eq, zero_add, Ideal.div_coe (max_one_ne_zero _), one32_eq, ← EReal.coe_mul,
    ← EReal.coe_mul]

/-- The per-element formula on real counts and real ℓ is the image of a real. -/
private theorem refLoss_coe (v : E → BitVec 1) (bk : E → Fin 10) (r : E → ℝ) (c : Fin 10 → ℝ) :
    refLoss v bk (fun e => ((r e : ℝ) : EReal)) (fun k => ((c k : ℝ) : EReal))
      = (((∑ e, (if v e = 1#1 ∧ 0 < c (bk e) then
                  max (∑ e', ((v e').toNat : ℝ)) 1 * (1 / max (c (bk e)) 1) else 0)
              * (1 / max (∑ k, (((Ideal.cmp .ogt ((c k : ℝ) : EReal) z32).toNat : ℝ))) 1) * r e)
          * (1 / max (∑ e', ((v e').toNat : ℝ)) 1) * 1 : ℝ) : EReal) := by
  unfold refLoss
  rw [denom_coe (fun e' => ((v e').toNat : ℝ)),
    denom_coe (fun k => (((Ideal.cmp .ogt ((c k : ℝ) : EReal) z32).toNat : ℝ)))]
  generalize htot : max (∑ e', ((v e').toNat : ℝ)) 1 = tot
  have htot0 : tot ≠ 0 := htot ▸ max_one_ne_zero _
  generalize hnn : max (∑ k, (((Ideal.cmp .ogt ((c k : ℝ) : EReal) z32).toNat : ℝ))) 1 = nn
  have hnn0 : nn ≠ 0 := hnn ▸ max_one_ne_zero _
  have hterm : ∀ e, Ideal.div
        (Scalar.select (IntOp.andi (v e) (Ideal.cmp .ogt ((c (bk e) : ℝ) : EReal) z32))
          (Ideal.div ((tot : ℝ) : EReal) (max ((c (bk e) : ℝ) : EReal) one32)) z32) ((nn : ℝ) : EReal)
        * ((r e : ℝ) : EReal)
      = (((if v e = 1#1 ∧ 0 < c (bk e) then tot * (1 / max (c (bk e)) 1) else 0) * (1 / nn) * r e : ℝ) : EReal) := by
    intro e
    rw [cmp_ogt_coe, andi_select_decide, one32_eq, coe_max, Ideal.div_coe (max_one_ne_zero _), ← EReal.coe_mul,
      z32_eq, ite_coe, Ideal.div_coe hnn0, ← EReal.coe_mul, ← EReal.coe_mul]
  simp only [hterm]
  rw [coe_sum, z32_eq, zero_add, Ideal.div_coe htot0, one32_eq, ← EReal.coe_mul, ← EReal.coe_mul]

/-! ### The identity over the reals -/

/-- Regrouping by bin. P marks the valid elements; c k is positive on the bin of every valid element; m k is any
    per-bin factor (here 1 / max(c k, 1)); tot and nn are any non-zero reals. An empty bin has an empty sum, so its
    guard can be dropped; a valid element's bin is non-empty, so its guard is validity alone; then the element sum
    is split over the bins and tot cancels. -/
private theorem regroup (P : E → Prop) [DecidablePred P] (bk : E → Fin 10) (r : E → ℝ) (c m : Fin 10 → ℝ)
    (tot nn : ℝ) (htot : tot ≠ 0) (hpos : ∀ e, P e → 0 < c (bk e)) :
    (∑ k, if 0 < c k then (∑ e, if P e ∧ bk e = k then r e else 0) * m k else 0) * (1 / nn) * 1
      = (∑ e, (if P e ∧ 0 < c (bk e) then tot * m (bk e) else 0) * (1 / nn) * r e) * (1 / tot) * 1 := by
  have hL : ∀ k, (if 0 < c k then (∑ e, if P e ∧ bk e = k then r e else 0) * m k else 0)
      = ∑ e, if P e ∧ bk e = k then r e * m k else 0 := by
    intro k
    by_cases hk : 0 < c k
    · rw [if_pos hk, Finset.sum_mul]
      refine Finset.sum_congr rfl fun e _ => ?_
      split_ifs <;> simp
    · rw [if_neg hk]
      symm
      refine Finset.sum_eq_zero fun e _ => ?_
      rw [if_neg]
      rintro ⟨he, rfl⟩
      exact hk (hpos e he)
  have hin : ∀ e, (∑ k, if P e ∧ bk e = k then r e * m k else 0) = if P e then r e * m (bk e) else 0 := by
    intro e
    by_cases he : P e
    · simp [he]
    · simp [he]
  simp only [hL]
  rw [Finset.sum_comm]
  simp only [hin]
  rw [Finset.sum_mul, Finset.sum_mul, Finset.sum_mul, Finset.sum_mul]
  refine Finset.sum_congr rfl fun e _ => ?_
  by_cases he : P e
  · rw [if_pos he, if_pos ⟨he, hpos e he⟩]
    field_simp
  · rw [if_neg he, if_neg (fun h => he h.1)]
    simp

/-- THE EQUALITY: with real cross entropies, the per-bin formula over the true counts and sums is the per-element
    formula. -/
theorem kerLoss_eq_refLoss (v : E → BitVec 1) (bk : E → Fin 10) (ℓ : E → EReal)
    (hℓ : ∀ e, ∃ r : ℝ, ℓ e = (r : EReal)) :
    kerLoss (fun k => ((cntN v bk k : ℝ) : EReal)) (bsum v bk ℓ)
      = refLoss v bk ℓ (fun k => ((cntN v bk k : ℝ) : EReal)) := by
  choose r hr using hℓ
  obtain rfl : ℓ = fun e => ((r e : ℝ) : EReal) := funext hr
  have hS : bsum v bk (fun e => ((r e : ℝ) : EReal))
      = fun k => (((∑ e, if v e = 1#1 ∧ bk e = k then r e else 0 : ℝ)) : EReal) := by
    funext k
    unfold bsum
    simp only [ite_coe]
    rw [coe_sum]
  rw [hS, kerLoss_coe, refLoss_coe]
  refine congrArg Real.toEReal ?_
  refine regroup (fun e => v e = 1#1) bk r (fun k => (cntN v bk k : ℝ)) (fun k => 1 / max (cntN v bk k : ℝ) 1)
    _ _ (max_one_ne_zero _) ?_
  intro e he
  have hc : 0 < cntN v bk (bk e) :=
    Finset.card_pos.mpr ⟨e, Finset.mem_filter.mpr ⟨Finset.mem_univ e, he, rfl⟩⟩
  exact_mod_cast hc

/-- Counting tile by tile: over a bijection between tiles × positions and the elements. -/
theorem cntN_tiles {T Y : Type} [Fintype T] [Fintype Y] (φ : T × Y ≃ E) (v : E → BitVec 1) (bk : E → Fin 10)
    (k : Fin 10) :
    ∑ t : T, cntN (fun y => v (φ (t, y))) (fun y => bk (φ (t, y))) k = cntN v bk k := by
  unfold cntN
  simp only [Finset.card_filter]
  rw [← Fintype.sum_prod_type' (f := fun t y => if v (φ (t, y)) = 1#1 ∧ bk (φ (t, y)) = k then 1 else 0)]
  exact Fintype.sum_equiv φ _ _ (fun p => by cases p; rfl)

/-- Summing tile by tile. -/
theorem bsum_tiles {T Y : Type} [Fintype T] [Fintype Y] (φ : T × Y ≃ E) (v : E → BitVec 1) (bk : E → Fin 10)
    (ℓ : E → EReal) (k : Fin 10) :
    ∑ t : T, bsum (fun y => v (φ (t, y))) (fun y => bk (φ (t, y))) (fun y => ℓ (φ (t, y))) k = bsum v bk ℓ k := by
  unfold bsum
  rw [← Fintype.sum_prod_type'
    (f := fun t y => if v (φ (t, y)) = 1#1 ∧ bk (φ (t, y)) = k then ℓ (φ (t, y)) else 0)]
  exact Fintype.sum_equiv φ _ _ (fun p => by cases p; rfl)

/-- The loss of three arrays over any finite index set, by the per-bin formula and by the per-element formula. -/
def lossK (x0 x1 x2 : E → EReal) : EReal :=
  kerLoss (fun k => ((cntN (fun e => vld (x2 e)) (fun e => binK (x0 e) (x1 e)) k : ℝ) : EReal))
    (bsum (fun e => vld (x2 e)) (fun e => binK (x0 e) (x1 e)) (fun e => bce (x0 e) (x1 e)))
def lossR (x0 x1 x2 : E → EReal) : EReal :=
  refLoss (fun e => vld (x2 e)) (fun e => binK (x0 e) (x1 e)) (fun e => bce (x0 e) (x1 e))
    (fun k => ((cntN (fun e => vld (x2 e)) (fun e => binK (x0 e) (x1 e)) k : ℝ) : EReal))

/-- On real logits and targets the two are one number. -/
theorem lossK_eq_lossR (x0 x1 x2 : E → EReal) (h0 : ∀ e, ∃ r : ℝ, x0 e = (r : EReal)) (h1 : ∀ e, ∃ r : ℝ, x1 e = (r : EReal)) :
    lossK x0 x1 x2 = lossR x0 x1 x2 := by
  unfold lossK lossR
  refine kerLoss_eq_refLoss _ _ _ fun e => ?_
  obtain ⟨a, ha⟩ := h0 e
  obtain ⟨b, hb⟩ := h1 e
  rw [ha, hb]
  exact bce_real a b

end Agg

end Cert.Ghm

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.TileIdeal.lean ====
/-
  One tile's counts and cross-entropy sums at the extended reals.

  The selector array read at a position is the selector of the three block entries there, the high part the cross
  entropy, the low part the cross entropy minus itself (zero on real inputs). A bin's count is the number of the
  tile's positions whose selector is the bin (a product with a ones column and a sum of the rows is the sum of all
  819200 entries; a number below 2^31 converts to itself), and its cross-entropy sum the sum over those positions.
-/
import proofs.«426658_j61873298866306_3_alg».proof.Proof.Chains
import proofs.«426658_j61873298866306_3_alg».proof.Proof.Elem
import proofs.«426658_j61873298866306_3_alg».proof.Proof.Algebra
import proofs.«426658_j61873298866306_3_alg».proof.Proof.LibRowProducts
import Idealize.ShloMosaic.PureOps.Ideal.Laws
import Idealize.ShloMosaic.Lib.ValueIdx
import Idealize.ShloMosaic.Lib.Pipeline.Value

noncomputable section

open scoped BigOperators

namespace Cert.KernelIdeal.Tile

open Idealize.ShloMosaic Idealize.ShloMosaic.ValueIdx Idealize.SL.Sem Cert.KernelIdeal Cert.KernelIdeal.Gen Cert.Ghm

/-! ## The three arrays at a position

Every operation of the three chains is pointwise except the casts of a block to its own shape, which are the
identity; at a position the chain's term is the per-element function's own term. -/

theorem selV_apply (x0 x1 x2 : Vec Ideal S800x1024 .f32) (y : S800x1024.Idx) :
    selV (F := Ideal) x0 x1 x2 y = sel (x0 y) (x1 y) (x2 y) := by
  unfold selV k0_pay7 k0_pay5 k0_pay6
  simp only [shapeCast_self]
  rfl

theorem bceHi_apply (x0 x1 : Vec Ideal S800x1024 .f32) (y : S800x1024.Idx) :
    bceHi (F := Ideal) x0 x1 y = bce (x0 y) (x1 y) := by
  unfold bceHi k0_pay9 k0_pay8 k0_pay5 k0_pay6
  simp only [shapeCast_self]
  rfl

theorem bceLo_apply (x0 x1 : Vec Ideal S800x1024 .f32) (y : S800x1024.Idx) :
    bceLo (F := Ideal) x0 x1 y = bce (x0 y) (x1 y) - bce (x0 y) (x1 y) := by
  unfold bceLo k0_pay11 k0_pay10 k0_pay8 k0_pay5 k0_pay6
  simp only [shapeCast_self]
  rfl

/-! ## The two-stage sum

A row's product with the all-ones column is the row's sum; the reduction of the column of row sums over both of
its axes, into a one-entry array, is the sum of the column. Together: the sum over all positions of the tile. -/

/-- The reduction of a column [800, 1], viewed as [1, 800, 1], over its last two axes is the sum of its entries:
    the result has one entry, so every source index reduces to it, and the view is a bijection of the indices. -/
private theorem rowSumAll_apply (v : FVec Ideal S800x1 .f32) (j : S1x1x1.Idx) :
    rowSumAll (F := Ideal) v j = ∑ r : S800x1.Idx, v r := by
  show (multiReduction (F := Ideal) .add [1, 2] S1 (shapeCast S1x800x1 v shapeCasts_S800x1_S1x800x1) 0x00000000#32
      reduces_S1x800x1_S1 (.inl rfl) rfl) (Shape.reshapeEquiv _ _) = _
  refine (Ideal.multiReduction_add_total _ _ _ (fun b => ?_) _ _ _).trans ?_
  · match b with
    | ⟨0, _⟩ => rfl
  · exact Equiv.sum_comp (Shape.reshapeEquiv _) v

/-- The product's dimension numbers are those of a plain matrix product. -/
private theorem plain_dot : Cert.Lib.RowProducts.Plain dot_S800x1024_S1024x1_S800x1_1_0_0_1_n_n :=
  ⟨rfl, rfl, rfl, rfl, rfl, rfl⟩

/-- The 16-bit words of 1.0 and of 0.0. -/
private theorem one_bf16 : Ideal.ofBits .bf16 0x3F80#16 = 1 := IdealRules.sign_bit.ideal_onePat .bf16
private theorem zero_bf16 : Ideal.ofBits .bf16 0x0000#16 = 0 := IdealRules.sign_bit.ideal_zero .bf16

/-- A row sum: the product with the all-ones column, from the zero accumulator, is the sum of the row. -/
private theorem laneSum_apply (g : FVec Ideal S800x1024 .bf16) (r : S800x1.Idx) :
    laneSum (F := Ideal) g r = ∑ q : Fin 1024, g (ix2 (r 0) q) := by
  unfold laneSum
  refine (Ideal.matmul_constant_zero_apply dot_S800x1024_S1024x1_S800x1_1_0_0_1_n_n none g (onesCol (F := Ideal)) r).trans ?_
  refine (plain_dot.sum_eq g (onesCol (F := Ideal)) r).trans ?_
  refine Finset.sum_congr rfl fun q _ => ?_
  show g (ix2 (r 0) q) * Ideal.ofBits .bf16 0x3F80#16 = _
  rw [one_bf16, mul_one]

/-- The sum of the row sums is the sum over the tile. -/
private theorem sum_laneSum (g : FVec Ideal S800x1024 .bf16) :
    ∑ r : S800x1.Idx, laneSum (F := Ideal) g r = ∑ y : S800x1024.Idx, g y := by
  rw [sum_idx2, sum_idx2]
  refine Finset.sum_congr rfl fun a _ => ?_
  rw [Fin.sum_univ_one]
  exact laneSum_apply g _

/-! ## Words and numbers -/

/-- A finite sum of real numbers, taken in the extended reals, is the real sum. -/
private theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A natural number up to the tile's size converts to its own 32-bit word: it is its own integer part, and the
    clamp to the signed 32-bit range leaves it. -/
private theorem fptosi_nat (n : ℕ) (hn : n ≤ 819200) : Ideal.fptosi 32 ((n : ℝ) : EReal) = BitVec.ofNat 32 n := by
  unfold Ideal.fptosi
  rw [Ideal.toIntClamped_coe, if_pos (Nat.cast_nonneg n), Int.floor_natCast]
  have hn' : (n : ℤ) ≤ 819200 := by exact_mod_cast hn
  rw [min_eq_right (by norm_num <;> omega), max_eq_right (by norm_num <;> omega)]
  exact BitVec.ofInt_natCast 32 n

/-- A truth value's bit, widened to 32 bits and read as a signed number, is 1 or 0. -/
private theorem ofBool_toInt (c : Bool) : (((BitVec.ofBool c).setWidth 32).toInt : ℝ) = if c then 1 else 0 := by
  cases c
  · have : ((BitVec.ofBool false).setWidth 32).toInt = 0 := by decide
    rw [this]; simp
  · have : ((BitVec.ofBool true).setWidth 32).toInt = 1 := by decide
    rw [this]; simp

/-- The equality test's bit is set exactly when the words are equal. -/
private theorem cmpi_eq_one_iff (a b : BitVec 32) : IntOp.cmpi .eq a b = 1#1 ↔ a = b := by
  show BitVec.ofBool (a == b) = 1#1 ↔ a = b
  by_cases h : a = b
  · simp [h]
  · have hb : (a == b) = false := beq_eq_false_iff_ne.mpr h
    rw [hb]
    exact ⟨fun h' => absurd h' (by decide), fun h' => absurd h' h⟩

/-- The mask's bit as a number: 1 where the words are equal, 0 elsewhere. -/
private theorem mask_entry (a b : BitVec 32) :
    (((IntOp.cmpi .eq a b).setWidth 32).toInt : ℝ) = if a = b then 1 else 0 := by
  show (((BitVec.ofBool (a == b)).setWidth 32).toInt : ℝ) = _
  rw [ofBool_toInt]
  by_cases h : a = b
  · simp [h]
  · simp [h]

/-- A select under the mask, against the zero tile: the entry where the words are equal, zero elsewhere. -/
private theorem masked_entry (b : BitVec 32) (s : IVec S800x1024 32) (g : FVec Ideal S800x1024 .bf16) (y : S800x1024.Idx) :
    (select (binMask b s) g (zeroBf (F := Ideal)) : FVec Ideal S800x1024 .bf16) y = if s y = b then g y else 0 := by
  show (if IntOp.cmpi .eq (s y) b = 1#1 then g y else Ideal.ofBits .bf16 0x0000#16) = _
  rw [zero_bf16]
  exact if_congr (cmpi_eq_one_iff _ _) rfl rfl

/-- A tile has 800 · 1024 positions. -/
private theorem card_tile : Fintype.card S800x1024.Idx = 819200 := by
  rw [Fintype.card_congr (idxEquiv2 (n0 := 800) (n1 := 1024)), Fintype.card_prod, Fintype.card_fin, Fintype.card_fin]

/-! ## One bin's count and sum over an abstract selector array -/

/-- The count of bin word b: the number of positions whose selector is b, converted. -/
private theorem binCnt_apply (b : BitVec 32) (s : IVec S800x1024 32) (j : S1x1x1.Idx) :
    binCnt (F := Ideal) b s j
      = Ideal.fptosi 32 ((((Finset.univ.filter fun y : S800x1024.Idx => s y = b).card : ℕ) : ℝ) : EReal) := by
  unfold binCnt
  show Ideal.fptosi 32 (rowSumAll (F := Ideal) (laneSum (F := Ideal) _) j) = _
  rw [rowSumAll_apply, sum_laneSum]
  refine congrArg (Ideal.fptosi 32) ?_
  have e : ∀ y : S800x1024.Idx,
      (truncf .bf16 (sitofp .f32 (extui 32 (binMask b s) natLt_1_32) : FVec Ideal S800x1024 .f32) bitsLt_bf16_f32
        : FVec Ideal S800x1024 .bf16) y = (((if s y = b then 1 else 0 : ℝ)) : EReal) := fun y => by
    show ((((IntOp.cmpi .eq (s y) b).setWidth 32).toInt : ℝ) : EReal) = _
    rw [mask_entry]
  rw [Finset.sum_congr rfl fun y _ => e y, sum_coe, Finset.sum_boole]

/-- The cross-entropy sum of bin word b: the high parts over the positions whose selector is b, plus the low parts. -/
private theorem binBce_apply (b : BitVec 32) (s : IVec S800x1024 32) (hi lo : FVec Ideal S800x1024 .bf16) (j : S1x1x1.Idx) :
    binBce (F := Ideal) b s hi lo j
      = (∑ y : S800x1024.Idx, if s y = b then hi y else 0) + ∑ y : S800x1024.Idx, if s y = b then lo y else 0 := by
  unfold binBce
  rw [rowSumAll_apply]
  show ∑ r : S800x1.Idx, (laneSum (F := Ideal) _ r + laneSum (F := Ideal) _ r) = _
  rw [Finset.sum_add_distrib, sum_laneSum, sum_laneSum]
  exact congrArg₂ (· + ·) (Finset.sum_congr rfl fun y _ => masked_entry b s hi y)
    (Finset.sum_congr rfl fun y _ => masked_entry b s lo y)

/-- The positions whose selector is bin k are the valid positions of bin k. -/
private theorem sel_filter (x0 x1 x2 : Vec Ideal S800x1024 .f32) (k : Fin 10) :
    (Finset.univ.filter fun y : S800x1024.Idx => selV (F := Ideal) x0 x1 x2 y = BitVec.ofNat 32 k.val)
      = Finset.univ.filter fun y : S800x1024.Idx => vld (x2 y) = 1#1 ∧ binK (x0 y) (x1 y) = k :=
  Finset.filter_congr fun y _ => by rw [selV_apply]; exact sel_eq_iff _ _ _ k

private theorem cnt_le (x0 x1 x2 : Vec Ideal S800x1024 .f32) (k : Fin 10) :
    cntN (fun y : S800x1024.Idx => vld (x2 y)) (fun y => binK (x0 y) (x1 y)) k ≤ 819200 := by
  unfold cntN
  exact (Finset.card_filter_le _ _).trans (by rw [Finset.card_univ, card_tile])

/-! ## The tile's aggregates -/

/-- Bin k's count of a tile is the number of its valid positions of bin k. -/
theorem tile_cnt (x0 x1 x2 : Vec Ideal S800x1024 .f32) (k : Fin 10) :
    binCnt (F := Ideal) (BitVec.ofNat 32 k.val) (selV (F := Ideal) x0 x1 x2) (ix3 0 0 0)
      = BitVec.ofNat 32 (cntN (fun y : S800x1024.Idx => vld (x2 y)) (fun y => binK (x0 y) (x1 y)) k) := by
  rw [binCnt_apply, sel_filter]
  exact fptosi_nat _ (cnt_le x0 x1 x2 k)

/-- The number of positions of a tile. -/
theorem tile_cnt_le (x0 x1 x2 : Vec Ideal S800x1024 .f32) (k : Fin 10) :
    cntN (fun y : S800x1024.Idx => vld (x2 y)) (fun y => binK (x0 y) (x1 y)) k ≤ 819200 := cnt_le x0 x1 x2 k

/-- Bin k's cross-entropy sum of a tile of real logits and targets. -/
theorem tile_bce (x0 x1 x2 : Vec Ideal S800x1024 .f32) (h0 : ∀ y, ∃ r : ℝ, x0 y = (r : EReal)) (h1 : ∀ y, ∃ r : ℝ, x1 y = (r : EReal))
    (k : Fin 10) :
    binBce (F := Ideal) (BitVec.ofNat 32 k.val) (selV (F := Ideal) x0 x1 x2) (bceHi (F := Ideal) x0 x1) (bceLo (F := Ideal) x0 x1) (ix3 0 0 0)
      = bsum (fun y : S800x1024.Idx => vld (x2 y)) (fun y => binK (x0 y) (x1 y)) (fun y => bce (x0 y) (x1 y)) k := by
  rw [binBce_apply]
  have hlo : ∀ y, bceLo (F := Ideal) x0 x1 y = 0 := fun y => by
    rw [bceLo_apply]
    obtain ⟨r0, e0⟩ := h0 y
    obtain ⟨r1, e1⟩ := h1 y
    obtain ⟨r, hr⟩ := bce_real r0 r1
    rw [e0, e1, hr, ← EReal.coe_sub, sub_self, EReal.coe_zero]
  rw [Finset.sum_eq_zero (s := Finset.univ)
      (f := fun y => if selV (F := Ideal) x0 x1 x2 y = BitVec.ofNat 32 k.val then bceLo (F := Ideal) x0 x1 y else 0)
      (fun y _ => by rw [hlo y]; exact ite_self 0), add_zero]
  unfold bsum
  refine Finset.sum_congr rfl fun y _ => ?_
  rw [selV_apply, bceHi_apply]
  exact if_congr (sel_eq_iff _ _ _ k) rfl rfl

end Cert.KernelIdeal.Tile

end
-- ==== Proof.Pieces.lean ====
/-
  What one run of the body leaves in the two accumulators, entry by entry.

  At the first tile of a core the body stores zeros, reads them back and adds the tile's ten counts (sums); at a later
  tile it adds them to what the accumulator held. Entry k of the ten is bin k's count (sum) of the tile.
-/
import proofs.«426658_j61873298866306_3_alg».proof.Proof.Gen.KernelIdeal.Frame
import proofs.«426658_j61873298866306_3_alg».proof.Proof.Chains
import Idealize.ShloMosaic.Lib.ValueIdx
import Idealize.ShloMosaic.Lib.Pipeline.Value

set_option maxRecDepth 16384

noncomputable section

namespace Cert.KernelIdeal.Tile

open Idealize.ShloMosaic Idealize.ShloMosaic.ValueIdx Idealize.SL.Sem Cert.KernelIdeal Cert.KernelIdeal.Gen

variable {F : FTy → Type} [FloatOps F]

/-- The zero offsets of a whole-buffer access, rank 3 and rank 2. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-! ## The ten bins side by side, and an entry of the row -/

/-- The ten counts of a tile as one row: entry k is bin k's count. -/
private def cntRow (s : IVec S800x1024 32) : IVec S1x1x10 32 :=
  concatenate S1x1x10 2 (List.ofFn fun n : Fin 10 =>
    (⟨S1x1x1, binCnt (F := F) (BitVec.ofNat 32 n.val) s⟩ : (t : Shape) × (t.Idx → BitVec 32))) concatenates_S1x1x1_S1x1x1_S1x1x1_S1x1x1_S1x1x1_S1x1x1_S1x1x1_S1x1x1_S1x1x1_S1x1x1_S1x1x10_d2

/-- The ten cross-entropy sums of a tile as one row: entry k is bin k's sum. -/
private def bceRow (s : IVec S800x1024 32) (hi lo : FVec F S800x1024 .bf16) : FVec F S1x1x10 .f32 :=
  concatenate S1x1x10 2 (List.ofFn fun n : Fin 10 =>
    (⟨S1x1x1, binBce (BitVec.ofNat 32 n.val) s hi lo⟩ : (t : Shape) × (t.Idx → F .f32))) concatenates_S1x1x1_S1x1x1_S1x1x1_S1x1x1_S1x1x1_S1x1x1_S1x1x1_S1x1x1_S1x1x1_S1x1x1_S1x1x10_d2

/-- Off the concatenation axis the one index of a one-entry piece agrees with any index (0, 0, k) of the row. -/
private theorem off_axis (k : Fin 10) : ∀ b : Fin S1x1x1.rank, b.cast (rfl : S1x1x1.rank = S1x1x10.rank) ≠ (2 : Fin S1x1x10.rank) →
    ((ix3 (0 : Fin 1) (0 : Fin 1) (0 : Fin 1) : S1x1x1.Idx) b).val
      = ((ix3 (0 : Fin 1) (0 : Fin 1) k : S1x1x10.Idx) (b.cast (rfl : S1x1x1.rank = S1x1x10.rank))).val
  | ⟨0, _⟩, _ => rfl
  | ⟨1, _⟩, _ => rfl
  | ⟨2, _⟩, hb => absurd rfl hb

/-- Entry k of the row of counts is bin k's count. -/
private theorem cntRow_apply (s : IVec S800x1024 32) (k : Fin 10) :
    cntRow (F := F) s (ix3 0 0 k) = binCnt (F := F) (BitVec.ofNat 32 k.val) s (ix3 0 0 0) :=
  concatenate_ofFn_unit_apply (t := S1x1x10) (s₁ := S1x1x1) 2
    (fun n : Fin 10 => binCnt (F := F) (BitVec.ofNat 32 n.val) s) concatenates_S1x1x1_S1x1x1_S1x1x1_S1x1x1_S1x1x1_S1x1x1_S1x1x1_S1x1x1_S1x1x1_S1x1x1_S1x1x10_d2 rfl rfl (ix3 0 0 k) k rfl (ix3 0 0 0) (off_axis k)

/-- Entry k of the row of cross-entropy sums is bin k's sum. -/
private theorem bceRow_apply (s : IVec S800x1024 32) (hi lo : FVec F S800x1024 .bf16) (k : Fin 10) :
    bceRow s hi lo (ix3 0 0 k) = binBce (BitVec.ofNat 32 k.val) s hi lo (ix3 0 0 0) :=
  concatenate_ofFn_unit_apply (t := S1x1x10) (s₁ := S1x1x1) 2
    (fun n : Fin 10 => binBce (BitVec.ofNat 32 n.val) s hi lo) concatenates_S1x1x1_S1x1x1_S1x1x1_S1x1x1_S1x1x1_S1x1x1_S1x1x1_S1x1x1_S1x1x1_S1x1x1_S1x1x10_d2 rfl rfl (ix3 0 0 k) k rfl (ix3 0 0 0) (off_axis k)

/-! ## The two stores' values: what the accumulator held plus the tile's row

The body cuts the ten bins' chains at different places, but each is the same chain: the store's value unfolds to the
sum of the loaded accumulator (through an identity reshape) and the concatenation of the ten one-entry arrays. -/

/-- The count store's value, over the selector array s and the accumulator's contents. -/
private theorem cnt_store (s : IVec S800x1024 32) (prev : Vec F S1x1x10 .i32) :
    k0_pay1 (k0_pay12 (F := F)) (k0_pay14 (F := F) s) (k0_pay19 (k0_pay18 (F := F) s)) (k0_pay22 s (k0_pay12 (F := F)))
        (k0_pay27 (k0_pay26 s (k0_pay12 (F := F)))) (k0_pay30 s (k0_pay12 (F := F))) (k0_pay36 (k0_pay34 s (k0_pay12 (F := F))))
        (k0_pay39 s (k0_pay12 (F := F))) (k0_pay45 (k0_pay12 (F := F)) (k0_pay42 s) (constant S800x1 .f32 0x00000000#32))
        (k0_pay48 s (k0_pay12 (F := F))) (k0_pay51 s) prev
      = addi prev (cntRow (F := F) s) :=
  congrArg (fun p : IVec S1x1x10 32 => addi p (cntRow (F := F) s)) (shapeCast_self prev shapeCasts_S1x1x10_S1x1x10)

/-- The cross-entropy store's value, over the selector array, the high part, the difference whose rounding is the low
    part, and the accumulator's contents. -/
private theorem bce_store (s : IVec S800x1024 32) (hi : FVec F S800x1024 .bf16) (v41 : FVec F S800x1024 .f32)
    (prev : Vec F S1x1x10 .f32) :
    k0_pay2 (k0_pay11 v41) (k0_pay12 (F := F)) (k0_pay15 s hi v41) (k0_pay20 (k0_pay17 s hi v41))
        (k0_pay23 s hi (k0_pay11 v41) k0_pay12) (k0_pay28 (k0_pay25 s hi (k0_pay11 v41) k0_pay12))
        (k0_pay31 s hi (k0_pay11 v41) k0_pay12)
        (k0_pay37 k0_pay12 (k0_pay33 s (k0_pay11 v41)) (k0_pay35 s hi k0_pay12) (constant S800x1 .f32 0x00000000#32))
        (k0_pay40 s hi (k0_pay11 v41) k0_pay12) (k0_pay46 k0_pay12 (k0_pay43 s hi) (k0_pay44 s (k0_pay11 v41)))
        (k0_pay49 s hi (k0_pay11 v41) k0_pay12) (k0_pay50 s) (k0_pay52 s hi) prev
      = addf prev (bceRow s hi (k0_pay11 v41)) :=
  congrArg (fun p : FVec F S1x1x10 .f32 => addf p (bceRow s hi (k0_pay11 v41))) (shapeCast_self prev shapeCasts_S1x1x10_S1x1x10)

/-! ## The four pieces -/

theorem out_A_3_apply (c : Dev nD) (i : grid0.Coords) (arg2 : Memref sig .tc .vmem S800x1024 .f32) (harg2 : arg2.IsWhole) (arg3 : Memref sig .tc .vmem S800x1024 .f32) (harg3 : arg3.IsWhole) (arg4 : Memref sig .tc .vmem S800x1024 .f32) (harg4 : arg4.IsWhole) (arg5 : Memref sig .tc .vmem S1x1x10 .i32) (harg5 : arg5.IsWhole) (arg6 : Memref sig .tc .vmem S1x1x10 .f32) (harg6 : arg6.IsWhole) (hc0 : cond0_0 i)
    (x0 x1 x2 : Vec F S800x1024 .f32) (k : Fin 10) :
    out0_A_3 c i arg2 harg2 arg3 harg3 arg4 harg4 arg5 harg5 arg6 harg6 hc0 x0 x1 x2 (ix3 0 0 k)
      = IntOp.addi 0#32 (binCnt (F := F) (BitVec.ofNat 32 k.val) (selV x0 x1 x2) (ix3 0 0 0)) := by
  have e : out0_A_3 c i arg2 harg2 arg3 harg3 arg4 harg4 arg5 harg5 arg6 harg6 hc0 x0 x1 x2 = addi k0_pay3 (cntRow (F := F) (selV x0 x1 x2)) := by
    unfold out0_A_3
    rw [View.read_writes_eq_canon _ _ _ (cover0_A_3 c i arg2 harg2 arg3 harg3 arg4 harg4 arg5 harg5 arg6 harg6 hc0 x0 x1 x2)]
    unfold kernelRun0_A
    dsimp only
    sl_unfold_words
    rw [View.canon_cons_unit_zero (S := S1x1x10) hz3, View.readCov_unit_zero (S := S1x1x10) _ hz3]
    simp only [View.readAt_eq_ld, harg2.read_unread, harg3.read_unread, harg4.read_unread,
      View.ld_unit_zero (S := S800x1024) hz2]
    exact cnt_store (selV x0 x1 x2) k0_pay3
  exact (congrFun e (ix3 0 0 k)).trans (congrArg (IntOp.addi 0#32) (cntRow_apply (selV x0 x1 x2) k))

theorem out_A_4_apply (c : Dev nD) (i : grid0.Coords) (arg2 : Memref sig .tc .vmem S800x1024 .f32) (harg2 : arg2.IsWhole) (arg3 : Memref sig .tc .vmem S800x1024 .f32) (harg3 : arg3.IsWhole) (arg4 : Memref sig .tc .vmem S800x1024 .f32) (harg4 : arg4.IsWhole) (arg5 : Memref sig .tc .vmem S1x1x10 .i32) (harg5 : arg5.IsWhole) (arg6 : Memref sig .tc .vmem S1x1x10 .f32) (harg6 : arg6.IsWhole) (hc0 : cond0_0 i)
    (x0 x1 x2 : Vec F S800x1024 .f32) (k : Fin 10) :
    out0_A_4 c i arg2 harg2 arg3 harg3 arg4 harg4 arg5 harg5 arg6 harg6 hc0 x0 x1 x2 (ix3 0 0 k)
      = FloatOps.addf (Scalar.ofBits .f32 0x00000000#32)
          (binBce (BitVec.ofNat 32 k.val) (selV x0 x1 x2) (bceHi x0 x1) (bceLo x0 x1) (ix3 0 0 0)) := by
  have e : out0_A_4 c i arg2 harg2 arg3 harg3 arg4 harg4 arg5 harg5 arg6 harg6 hc0 x0 x1 x2
      = addf (k0_pay4 (F := F)) (bceRow (selV x0 x1 x2) (bceHi x0 x1) (bceLo x0 x1)) := by
    unfold out0_A_4
    rw [View.read_writes_eq_canon _ _ _ (cover0_A_4 c i arg2 harg2 arg3 harg3 arg4 harg4 arg5 harg5 arg6 harg6 hc0 x0 x1 x2)]
    unfold kernelRun0_A
    dsimp only
    sl_unfold_words
    rw [View.canon_cons_unit_zero (S := S1x1x10) hz3, View.readCov_unit_zero (S := S1x1x10) _ hz3]
    simp only [View.readAt_eq_ld, harg2.read_unread, harg3.read_unread, harg4.read_unread,
      View.ld_unit_zero (S := S800x1024) hz2]
    exact bce_store (selV x0 x1 x2) (bceHi x0 x1) (k0_pay10 x0 x1) k0_pay4
  exact (congrFun e (ix3 0 0 k)).trans
    (congrArg (FloatOps.addf (Scalar.ofBits .f32 0x00000000#32 : F .f32))
      (bceRow_apply (selV x0 x1 x2) (bceHi x0 x1) (bceLo x0 x1) k))

theorem out_B_3_apply (c : Dev nD) (i : grid0.Coords) (arg2 : Memref sig .tc .vmem S800x1024 .f32) (harg2 : arg2.IsWhole) (arg3 : Memref sig .tc .vmem S800x1024 .f32) (harg3 : arg3.IsWhole) (arg4 : Memref sig .tc .vmem S800x1024 .f32) (harg4 : arg4.IsWhole) (arg5 : Memref sig .tc .vmem S1x1x10 .i32) (harg5 : arg5.IsWhole) (arg6 : Memref sig .tc .vmem S1x1x10 .f32) (harg6 : arg6.IsWhole) (hc0 : ¬cond0_0 i)
    (x0 x1 x2 : Vec F S800x1024 .f32) (xo3 : Vec F S1x1x10 .i32) (xo4 : Vec F S1x1x10 .f32) (k : Fin 10) :
    out0_B_3 c i arg2 harg2 arg3 harg3 arg4 harg4 arg5 harg5 arg6 harg6 hc0 x0 x1 x2 xo3 xo4 (ix3 0 0 k)
      = IntOp.addi (xo3 (ix3 0 0 k)) (binCnt (F := F) (BitVec.ofNat 32 k.val) (selV x0 x1 x2) (ix3 0 0 0)) := by
  have e : out0_B_3 c i arg2 harg2 arg3 harg3 arg4 harg4 arg5 harg5 arg6 harg6 hc0 x0 x1 x2 xo3 xo4 = addi xo3 (cntRow (F := F) (selV x0 x1 x2)) := by
    unfold out0_B_3
    rw [View.read_writes_eq_canon _ _ _ (cover0_B_3 c i arg2 harg2 arg3 harg3 arg4 harg4 arg5 harg5 arg6 harg6 hc0 x0 x1 x2 xo3 xo4)]
    unfold kernelRun0_B
    dsimp only
    sl_unfold_words
    rw [View.canon_unit_zero hz3]
    simp only [View.readAt_eq_ld, harg2.read_unread, harg3.read_unread, harg4.read_unread, harg5.read_unread,
      View.ld_unit_zero (S := S800x1024) hz2, View.ld_unit_zero (S := S1x1x10) hz3]
    exact cnt_store (selV x0 x1 x2) xo3
  exact (congrFun e (ix3 0 0 k)).trans (congrArg (IntOp.addi (xo3 (ix3 0 0 k))) (cntRow_apply (selV x0 x1 x2) k))

theorem out_B_4_apply (c : Dev nD) (i : grid0.Coords) (arg2 : Memref sig .tc .vmem S800x1024 .f32) (harg2 : arg2.IsWhole) (arg3 : Memref sig .tc .vmem S800x1024 .f32) (harg3 : arg3.IsWhole) (arg4 : Memref sig .tc .vmem S800x1024 .f32) (harg4 : arg4.IsWhole) (arg5 : Memref sig .tc .vmem S1x1x10 .i32) (harg5 : arg5.IsWhole) (arg6 : Memref sig .tc .vmem S1x1x10 .f32) (harg6 : arg6.IsWhole) (hc0 : ¬cond0_0 i)
    (x0 x1 x2 : Vec F S800x1024 .f32) (xo3 : Vec F S1x1x10 .i32) (xo4 : Vec F S1x1x10 .f32) (k : Fin 10) :
    out0_B_4 c i arg2 harg2 arg3 harg3 arg4 harg4 arg5 harg5 arg6 harg6 hc0 x0 x1 x2 xo3 xo4 (ix3 0 0 k)
      = FloatOps.addf (xo4 (ix3 0 0 k))
          (binBce (BitVec.ofNat 32 k.val) (selV x0 x1 x2) (bceHi x0 x1) (bceLo x0 x1) (ix3 0 0 0)) := by
  have e : out0_B_4 c i arg2 harg2 arg3 harg3 arg4 harg4 arg5 harg5 arg6 harg6 hc0 x0 x1 x2 xo3 xo4
      = addf xo4 (bceRow (selV x0 x1 x2) (bceHi x0 x1) (bceLo x0 x1)) := by
    unfold out0_B_4
    rw [View.read_writes_eq_canon _ _ _ (cover0_B_4 c i arg2 harg2 arg3 harg3 arg4 harg4 arg5 harg5 arg6 harg6 hc0 x0 x1 x2 xo3 xo4)]
    unfold kernelRun0_B
    dsimp only
    sl_unfold_words
    rw [View.canon_unit_zero hz3]
    simp only [View.readAt_eq_ld, harg2.read_unread, harg3.read_unread, harg4.read_unread, harg6.read_unread,
      View.ld_unit_zero (S := S800x1024) hz2, View.ld_unit_zero (S := S1x1x10) hz3]
    exact bce_store (selV x0 x1 x2) (bceHi x0 x1) (k0_pay10 x0 x1) xo4
  exact (congrFun e (ix3 0 0 k)).trans
    (congrArg (FloatOps.addf (xo4 (ix3 0 0 k)))
      (bceRow_apply (selV x0 x1 x2) (bceHi x0 x1) (bceLo x0 x1) k))

end Cert.KernelIdeal.Tile

end
-- ==== Proof.Accum.lean ====
/-
  The two accumulators after each grid point, and the result arrays.

  The grid is 2 cores by 10 tiles, point n = 10·q + j. The count accumulator after point n holds, per bin, the
  32-bit sum of the tiles' counts of core q up to tile j (started from zero at j = 0), the cross-entropy
  accumulator the same sum of the tiles' cross-entropy sums, added in tile order. Each accumulator is written back
  once per core, after its tile 9, into row q of its [2, 1, 10] result array.
-/
import proofs.«426658_j61873298866306_3_alg».proof.Proof.Gen.KernelIdeal.Frame
import proofs.«426658_j61873298866306_3_alg».proof.Proof.Pieces
import Idealize.ShloMosaic.Lib.Pipeline.Value
import Idealize.ShloMosaic.Lib.ValueIdx

set_option maxRecDepth 16384

noncomputable section

namespace Cert.KernelIdeal.Tile

open Idealize.ShloMosaic Idealize.ShloMosaic.ValueIdx Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ)

/-- The three input blocks of point t, at their literal type. -/
abbrev xb0 (c : Dev nD) (t : Fin cfg0.N) : Vec F S800x1024 .f32 := iblk m c 0 t
abbrev xb1 (c : Dev nD) (t : Fin cfg0.N) : Vec F S800x1024 .f32 := iblk m c 1 t
abbrev xb2 (c : Dev nD) (t : Fin cfg0.N) : Vec F S800x1024 .f32 := iblk m c 2 t

/-- Bin k's count and cross-entropy sum of the tile of point t. -/
def ptCnt (c : Dev nD) (t : Fin cfg0.N) (k : Fin 10) : BitVec 32 :=
  binCnt (F := F) (BitVec.ofNat 32 k.val) (selV (xb0 m c t) (xb1 m c t) (xb2 m c t)) (ix3 0 0 0)
def ptBce (c : Dev nD) (t : Fin cfg0.N) (k : Fin 10) : F .f32 :=
  binBce (BitVec.ofNat 32 k.val) (selV (xb0 m c t) (xb1 m c t) (xb2 m c t)) (bceHi (xb0 m c t) (xb1 m c t))
    (bceLo (xb0 m c t) (xb1 m c t)) (ix3 0 0 0)

/-- The count accumulator after point n: restarted from zero at the first tile of a core. -/
def accCnt (c : Dev nD) : (n : ℕ) → n < cfg0.N → Fin 10 → BitVec 32
  | 0, h, k => IntOp.addi 0#32 (ptCnt m c ⟨0, h⟩ k)
  | n + 1, h, k =>
    if (n + 1) % 10 = 0 then IntOp.addi 0#32 (ptCnt m c ⟨n + 1, h⟩ k)
    else IntOp.addi (accCnt c n (Nat.lt_of_succ_lt h) k) (ptCnt m c ⟨n + 1, h⟩ k)

/-- The cross-entropy accumulator after point n. -/
def accBce (c : Dev nD) : (n : ℕ) → n < cfg0.N → Fin 10 → F .f32
  | 0, h, k => FloatOps.addf (Scalar.ofBits .f32 0x00000000#32) (ptBce m c ⟨0, h⟩ k)
  | n + 1, h, k =>
    if (n + 1) % 10 = 0 then FloatOps.addf (Scalar.ofBits .f32 0x00000000#32) (ptBce m c ⟨n + 1, h⟩ k)
    else FloatOps.addf (accBce c n (Nat.lt_of_succ_lt h) k) (ptBce m c ⟨n + 1, h⟩ k)

/-- By induction on the point: the first tile of a core leaves zero plus the tile's counts in each bin, a later tile
    adds the tile's counts to what the point before left. -/
theorem outsAt_cnt (c : Dev nD) (n : ℕ) (h : n < cfg0.N) (k : Fin 10) :
    (outsAt0 m c n h).1 (ix3 0 0 k) = accCnt m c n h k := by
  induction n with
  | zero =>
    rw [outsAt0_A m c ⟨0, h⟩ rfl]
    dsimp only
    exact out_A_3_apply (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (xb0 m c ⟨0, h⟩) (xb1 m c ⟨0, h⟩) (xb2 m c ⟨0, h⟩) k
  | succ n ih =>
    by_cases h0 : (n + 1) % 10 = 0
    · rw [outsAt0_A m c ⟨n + 1, h⟩ h0]
      dsimp only
      refine (out_A_3_apply (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) ((hcond0_0 ⟨n + 1, h⟩).mpr h0) (xb0 m c ⟨n + 1, h⟩) (xb1 m c ⟨n + 1, h⟩) (xb2 m c ⟨n + 1, h⟩) k).trans ?_
      rw [accCnt, if_pos h0]
      rfl
    · rw [outsAt0_B m c ⟨n + 1, h⟩ h0]
      dsimp only
      refine (out_B_3_apply (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) (fun hh => h0 ((hcond0_0 ⟨n + 1, h⟩).mp hh)) (xb0 m c ⟨n + 1, h⟩) (xb1 m c ⟨n + 1, h⟩)
        (xb2 m c ⟨n + 1, h⟩) (outsAt0 m c n (Nat.lt_of_succ_lt h)).1 (outsAt0 m c n (Nat.lt_of_succ_lt h)).2 k).trans ?_
      rw [accCnt, if_neg h0, ih (Nat.lt_of_succ_lt h)]
      rfl

/-- The same induction for the cross-entropy accumulator. -/
theorem outsAt_bce (c : Dev nD) (n : ℕ) (h : n < cfg0.N) (k : Fin 10) :
    (outsAt0 m c n h).2 (ix3 0 0 k) = accBce m c n h k := by
  induction n with
  | zero =>
    rw [outsAt0_A m c ⟨0, h⟩ rfl]
    dsimp only
    exact out_A_4_apply (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (xb0 m c ⟨0, h⟩) (xb1 m c ⟨0, h⟩) (xb2 m c ⟨0, h⟩) k
  | succ n ih =>
    by_cases h0 : (n + 1) % 10 = 0
    · rw [outsAt0_A m c ⟨n + 1, h⟩ h0]
      dsimp only
      refine (out_A_4_apply (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) ((hcond0_0 ⟨n + 1, h⟩).mpr h0) (xb0 m c ⟨n + 1, h⟩) (xb1 m c ⟨n + 1, h⟩) (xb2 m c ⟨n + 1, h⟩) k).trans ?_
      rw [accBce, if_pos h0]
      rfl
    · rw [outsAt0_B m c ⟨n + 1, h⟩ h0]
      dsimp only
      refine (out_B_4_apply (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) (fun hh => h0 ((hcond0_0 ⟨n + 1, h⟩).mp hh)) (xb0 m c ⟨n + 1, h⟩) (xb1 m c ⟨n + 1, h⟩)
        (xb2 m c ⟨n + 1, h⟩) (outsAt0 m c n (Nat.lt_of_succ_lt h)).1 (outsAt0 m c n (Nat.lt_of_succ_lt h)).2 k).trans ?_
      rw [accBce, if_neg h0, ih (Nat.lt_of_succ_lt h)]
      rfl

theorem lastPt (q : Fin 2) : 10 * q.val + 9 < cfg0.N := by
  have hN : cfg0.N = 20 := N_0
  have := q.isLt
  omega

/-- The two result arrays after the region: row q is core q's accumulator after its last tile. -/
def res3 (c : Dev nD) : Buf (Elt F) ((c : Thread nD τ).loc main_v3_0) :=
  fun (i : S2x1x10.Idx) => accCnt m c (10 * (i 0).val + 9) (lastPt ⟨(i 0).val, (i 0).isLt⟩) ⟨(i 2).val, (i 2).isLt⟩
def res4 (c : Dev nD) : Buf (Elt F) ((c : Thread nD τ).loc main_v3_1) :=
  fun (i : S2x1x10.Idx) => accBce m c (10 * (i 0).val + 9) (lastPt ⟨(i 0).val, (i 0).isLt⟩) ⟨(i 2).val, (i 2).isLt⟩

/-- Window 3's block index at point t: row t / 10, the other two axes at zero. -/
private theorem idx3_0 : ∀ t : Fin cfg0.N, win0_3.index t 0 = t.val / 10 :=
  (by decide +kernel : ∀ t : Fin grid0.N, win0_3.index t 0 = t.val / 10)
private theorem idx3_1 : ∀ t : Fin cfg0.N, win0_3.index t 1 = 0 :=
  (by decide +kernel : ∀ t : Fin grid0.N, win0_3.index t 1 = 0)
private theorem idx3_2 : ∀ t : Fin cfg0.N, win0_3.index t 2 = 0 :=
  (by decide +kernel : ∀ t : Fin grid0.N, win0_3.index t 2 = 0)

/-- The accumulator depends on the point and the bin only through their values. -/
private theorem accCnt_congr (c : Dev nD) {n n' : ℕ} (e : n = n') (h : n < cfg0.N) (h' : n' < cfg0.N) {k k' : Fin 10} (ek : k = k') :
    accCnt m c n h k = accCnt m c n' h' k' := by
  subst e; subst ek; rfl

/-- What a write-back of window 3 writes, at a point 10·q + 9, is row q of the result: the block there is the
    [1, 1, 10] rectangle at (q, 0, 0), and entry (0, 0, k) of the staging buffer is the accumulator's bin k. -/
private theorem flushed3_eq (c : Dev nD) (t : Fin cfg0.N) (hf : (cfg0.win 3).flush t = true) :
    (dats m 0 c).flushed 3 t = ((cfg0.win 3).blk t).view.read (Elt F) (res3 m c) := by
  have hN : cfg0.N = 20 := N_0
  have h9 : t.val % 10 = 9 := (flush0_3 t).mp hf
  funext y
  show (cfg0.win 3).cut (grid0.coords t) ((dats m 0 c).after 3 t) y = _
  rw [after0_3, View.read_apply]
  have y0 : (y 0 : ℕ) < 1 := (y 0).isLt
  have y1 : (y 1 : ℕ) < 1 := (y 1).isLt
  have y2 : (y 2 : ℕ) < 10 := (y 2).isLt
  have e0 : ((((cfg0.win 3).blk t).view.emb y) 0 : ℕ) = t.val / 10 := by
    show ((win0_3.rect t).emb y 0 : ℕ) = _
    rw [Pipeline.Window.rect_emb_val, idx3_0]
    show t.val / 10 * 1 + (y 0 : ℕ) = _
    omega
  have e2 : ((((cfg0.win 3).blk t).view.emb y) 2 : ℕ) = (y 2 : ℕ) := by
    show ((win0_3.rect t).emb y 2 : ℕ) = _
    rw [Pipeline.Window.rect_emb_val, idx3_2]
    show 0 * 10 + (y 2 : ℕ) = _
    omega
  have hy : (win0_3.xinj (grid0.coords t) y : S1x1x10.Idx) = ix3 0 0 ⟨(y 2).val, y2⟩ := by
    funext a
    apply Fin.ext
    match a with
    | ⟨0, _⟩ => show (y 0 : ℕ) = 0; omega
    | ⟨1, _⟩ => show (y 1 : ℕ) = 0; omega
    | ⟨2, _⟩ => rfl
  show (outsAt0 m c t.val t.isLt).1 (win0_3.xinj (grid0.coords t) y) = res3 m c (((cfg0.win 3).blk t).view.emb y)
  rw [hy, outsAt_cnt]
  unfold res3
  exact accCnt_congr m c (by omega) _ _ (Fin.ext e2.symm)

/-- Window 4's block index at point t: row t / 10, the other two axes at zero. -/
private theorem idx4_0 : ∀ t : Fin cfg0.N, win0_4.index t 0 = t.val / 10 :=
  (by decide +kernel : ∀ t : Fin grid0.N, win0_4.index t 0 = t.val / 10)
private theorem idx4_1 : ∀ t : Fin cfg0.N, win0_4.index t 1 = 0 :=
  (by decide +kernel : ∀ t : Fin grid0.N, win0_4.index t 1 = 0)
private theorem idx4_2 : ∀ t : Fin cfg0.N, win0_4.index t 2 = 0 :=
  (by decide +kernel : ∀ t : Fin grid0.N, win0_4.index t 2 = 0)

/-- The accumulator depends on the point and the bin only through their values. -/
private theorem accBce_congr (c : Dev nD) {n n' : ℕ} (e : n = n') (h : n < cfg0.N) (h' : n' < cfg0.N) {k k' : Fin 10} (ek : k = k') :
    accBce m c n h k = accBce m c n' h' k' := by
  subst e; subst ek; rfl

/-- What a write-back of window 4 writes, at a point 10·q + 9, is row q of the result: the block there is the
    [1, 1, 10] rectangle at (q, 0, 0), and entry (0, 0, k) of the staging buffer is the accumulator's bin k. -/
private theorem flushed4_eq (c : Dev nD) (t : Fin cfg0.N) (hf : (cfg0.win 4).flush t = true) :
    (dats m 0 c).flushed 4 t = ((cfg0.win 4).blk t).view.read (Elt F) (res4 m c) := by
  have hN : cfg0.N = 20 := N_0
  have h9 : t.val % 10 = 9 := (flush0_4 t).mp hf
  funext y
  show (cfg0.win 4).cut (grid0.coords t) ((dats m 0 c).after 4 t) y = _
  rw [after0_4, View.read_apply]
  have y0 : (y 0 : ℕ) < 1 := (y 0).isLt
  have y1 : (y 1 : ℕ) < 1 := (y 1).isLt
  have y2 : (y 2 : ℕ) < 10 := (y 2).isLt
  have e0 : ((((cfg0.win 4).blk t).view.emb y) 0 : ℕ) = t.val / 10 := by
    show ((win0_4.rect t).emb y 0 : ℕ) = _
    rw [Pipeline.Window.rect_emb_val, idx4_0]
    show t.val / 10 * 1 + (y 0 : ℕ) = _
    omega
  have e2 : ((((cfg0.win 4).blk t).view.emb y) 2 : ℕ) = (y 2 : ℕ) := by
    show ((win0_4.rect t).emb y 2 : ℕ) = _
    rw [Pipeline.Window.rect_emb_val, idx4_2]
    show 0 * 10 + (y 2 : ℕ) = _
    omega
  have hy : (win0_4.xinj (grid0.coords t) y : S1x1x10.Idx) = ix3 0 0 ⟨(y 2).val, y2⟩ := by
    funext a
    apply Fin.ext
    match a with
    | ⟨0, _⟩ => show (y 0 : ℕ) = 0; omega
    | ⟨1, _⟩ => show (y 1 : ℕ) = 0; omega
    | ⟨2, _⟩ => rfl
  show (outsAt0 m c t.val t.isLt).2 (win0_4.xinj (grid0.coords t) y) = res4 m c (((cfg0.win 4).blk t).view.emb y)
  rw [hy, outsAt_bce]
  unfold res4
  exact accBce_congr m c (by omega) _ _ (Fin.ext e2.symm)

/-- Row q of each result is covered by the block written back at point 10·q + 9. -/
theorem final3 (c : Dev nD) : (dats m 0 c).arrAt 3 cfg0.N = res3 m c :=
  (dats m 0 c).arrAt_eq_of_cover 3 (res3 m c) (flushed3_eq m c) fun i => by
    have i0 : (i 0 : ℕ) < 2 := (i 0).isLt
    have i1 : (i 1 : ℕ) < 1 := (i 1).isLt
    have i2 : (i 2 : ℕ) < 10 := (i 2).isLt
    refine ⟨⟨10 * (i 0).val + 9, lastPt ⟨(i 0).val, i0⟩⟩, (flush0_3 _).mpr (by show (10 * (i 0).val + 9) % 10 = 9; omega), ?_⟩
    show i ∈ ((View.whole main_v3_0).slice (win0_3.rect ⟨10 * (i 0).val + 9, lastPt ⟨(i 0).val, i0⟩⟩)).set
    rw [View.set_slice_whole, Rect.mem_set_unit]
    intro a
    match a with
    | ⟨0, _⟩ =>
      show win0_3.index ⟨10 * (i 0).val + 9, _⟩ 0 * 1 ≤ (i 0 : ℕ) ∧ (i 0 : ℕ) < win0_3.index ⟨10 * (i 0).val + 9, _⟩ 0 * 1 + 1
      rw [idx3_0]
      show (10 * (i 0).val + 9) / 10 * 1 ≤ (i 0 : ℕ) ∧ (i 0 : ℕ) < (10 * (i 0).val + 9) / 10 * 1 + 1
      omega
    | ⟨1, _⟩ =>
      show win0_3.index ⟨10 * (i 0).val + 9, _⟩ 1 * 1 ≤ (i 1 : ℕ) ∧ (i 1 : ℕ) < win0_3.index ⟨10 * (i 0).val + 9, _⟩ 1 * 1 + 1
      rw [idx3_1]
      omega
    | ⟨2, _⟩ =>
      show win0_3.index ⟨10 * (i 0).val + 9, _⟩ 2 * 10 ≤ (i 2 : ℕ) ∧ (i 2 : ℕ) < win0_3.index ⟨10 * (i 0).val + 9, _⟩ 2 * 10 + 10
      rw [idx3_2]
      omega

theorem final4 (c : Dev nD) : (dats m 0 c).arrAt 4 cfg0.N = res4 m c :=
  (dats m 0 c).arrAt_eq_of_cover 4 (res4 m c) (flushed4_eq m c) fun i => by
    have i0 : (i 0 : ℕ) < 2 := (i 0).isLt
    have i1 : (i 1 : ℕ) < 1 := (i 1).isLt
    have i2 : (i 2 : ℕ) < 10 := (i 2).isLt
    refine ⟨⟨10 * (i 0).val + 9, lastPt ⟨(i 0).val, i0⟩⟩, (flush0_4 _).mpr (by show (10 * (i 0).val + 9) % 10 = 9; omega), ?_⟩
    show i ∈ ((View.whole main_v3_1).slice (win0_4.rect ⟨10 * (i 0).val + 9, lastPt ⟨(i 0).val, i0⟩⟩)).set
    rw [View.set_slice_whole, Rect.mem_set_unit]
    intro a
    match a with
    | ⟨0, _⟩ =>
      show win0_4.index ⟨10 * (i 0).val + 9, _⟩ 0 * 1 ≤ (i 0 : ℕ) ∧ (i 0 : ℕ) < win0_4.index ⟨10 * (i 0).val + 9, _⟩ 0 * 1 + 1
      rw [idx4_0]
      show (10 * (i 0).val + 9) / 10 * 1 ≤ (i 0 : ℕ) ∧ (i 0 : ℕ) < (10 * (i 0).val + 9) / 10 * 1 + 1
      omega
    | ⟨1, _⟩ =>
      show win0_4.index ⟨10 * (i 0).val + 9, _⟩ 1 * 1 ≤ (i 1 : ℕ) ∧ (i 1 : ℕ) < win0_4.index ⟨10 * (i 0).val + 9, _⟩ 1 * 1 + 1
      rw [idx4_1]
      omega
    | ⟨2, _⟩ =>
      show win0_4.index ⟨10 * (i 0).val + 9, _⟩ 2 * 10 ≤ (i 2 : ℕ) ∧ (i 2 : ℕ) < win0_4.index ⟨10 * (i 0).val + 9, _⟩ 2 * 10 + 10
      rw [idx4_2]
      omega

end Cert.KernelIdeal.Tile

end
-- ==== Proof.Tail.lean ====
/-
  The host epilogue after the region, as one function of the two result arrays.

  It sums the two cores' rows of each array, converts the counts to numbers, and returns
  (Σ over the bins with a positive count of sum / max(count, 1)) / max(number of such bins, 1), times 1.
-/
import proofs.«426658_j61873298866306_3_alg».proof.Proof.Gen.KernelIdeal.Frame
import proofs.«426658_j61873298866306_3_alg».proof.Proof.Algebra
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.Tile

open Idealize.ShloMosaic Idealize.ShloMosaic.ValueIdx Idealize.ShloMosaic.TcCoe Idealize.SL.Sem Cert.KernelIdeal Cert.KernelIdeal.Gen Cert.Ghm
open Idealize.ShloMosaic.Pipeline (Dat)

variable {F : FTy → Type} [FloatOps F]
variable (m : (ℓ : Loc nD τ sig) → Buf (Elt F) ℓ)

/-- The epilogue's operations composed, of the count array and the cross-entropy array. -/
def tailFn (c : Dev nD) (a3 : Buf (Elt F) ((c : Thread nD τ).loc main_v3_0)) (a4 : Buf (Elt F) ((c : Thread nD τ).loc main_v3_1)) :
    Buf (Elt F) ((c : Thread nD τ).loc main_v20) :=
  let v4 : (⟨S2x10, .i32⟩ : BufTy).Contents (Elt F) := fun i => shapeCast S2x10 a3 shapeCasts_S2x1x10_S2x10 i
  let v5 : (⟨S10, .i32⟩ : BufTy).Contents (Elt F) := Host.reduce IntOp.addi v4 (constantI S_ 32 0#32) reducesTo_S2x10_S10_d0 h_S_
  let v6 : (⟨S10, .f32⟩ : BufTy).Contents (Elt F) := sitofp .f32 v5
  let v7 : (⟨S2x10, .f32⟩ : BufTy).Contents (Elt F) := fun i => shapeCast S2x10 a4 shapeCasts_S2x1x10_S2x10 i
  let v8 : (⟨S10, .f32⟩ : BufTy).Contents (Elt F) := Host.reduceAdd v7 (constant S_ .f32 0x00000000#32) reducesTo_S2x10_S10_d0 h_S_
  let v9 : (⟨S10, .f32⟩ : BufTy).Contents (Elt F) := broadcastInDim S10 ![] bcast_S_S10 (constant S_ .f32 0x00000000#32)
  let v10 : (⟨S10, .i1⟩ : BufTy).Contents (Elt F) := cmpf .ogt v6 v9
  let v11 : (⟨S10, .f32⟩ : BufTy).Contents (Elt F) := uitofp .f32 v10
  let v12 : (⟨S_, .f32⟩ : BufTy).Contents (Elt F) := Host.reduceAdd v11 (constant S_ .f32 0x00000000#32) reducesTo_S10_S_d0 h_S_
  let v13 : (⟨S10, .f32⟩ : BufTy).Contents (Elt F) := broadcastInDim S10 ![] bcast_S_S10 (constant S_ .f32 0x3F800000#32)
  let v14 : (⟨S10, .f32⟩ : BufTy).Contents (Elt F) := maximumf v6 v13
  let v15 : (⟨S10, .f32⟩ : BufTy).Contents (Elt F) := Host.divf v8 v14
  let w1 : (⟨S10, .f32⟩ : BufTy).Contents (Elt F) := broadcastInDim S10 ![] bcast_S_S10 (id (constant S_ .f32 0x00000000#32 : (⟨S_, .f32⟩ : BufTy).Contents (Elt F)))
  let v16 : (⟨S10, .f32⟩ : BufTy).Contents (Elt F) := select v10 v15 w1
  let v17 : (⟨S_, .f32⟩ : BufTy).Contents (Elt F) := Host.reduceAdd v16 (constant S_ .f32 0x00000000#32) reducesTo_S10_S_d0 h_S_
  let v18 : (⟨S_, .f32⟩ : BufTy).Contents (Elt F) := maximumf v12 (constant S_ .f32 0x3F800000#32)
  let v19 : (⟨S_, .f32⟩ : BufTy).Contents (Elt F) := Host.divf v17 v18
  (mulf v19 (constant S_ .f32 0x3F800000#32) : (⟨S_, .f32⟩ : BufTy).Contents (Elt F))

set_option maxHeartbeats 1000000 in
/-- The result buffer after the lines that follow the region is the epilogue of the two result arrays. -/
theorem tail_result (c : Dev nD) :
    Pipeline.afterTail₀ cfgs (dats m) 0 (V0 m) [hostOps1, hostOps1_1, hostOps1_2] c main_v20
      = tailFn (F := F) c ((dats m 0 c).arrAt 3 cfg0.N) ((dats m 0 c).arrAt 4 cfg0.N) := by
  unfold Pipeline.afterTail₀
  simp only [hostOps1, hostOps1_1, hostOps1_2, List.flatten_cons, List.flatten_nil, List.append_nil, List.cons_append,
    List.nil_append]
  after_results_simp
  simp only [StableHlo.TRef.ofBuf, StableHlo.TRef.toBuf, cast_eq]
  rw [Pipeline.withArrays_arr spec0 launch0.win.arr_inj c _ _ 3, Pipeline.withArrays_arr spec0 launch0.win.arr_inj c _ _ 4]
  rfl

/-- The index over bin `k` in row `r` of the two-row array. -/
private theorem lift_row (h : S2x10.Reduces [0] S10) (k : Fin 10) (r : Fin 2) : h.lift (ix1 k) r = ix2 r k := by
  funext a
  match a with
  | ⟨0, _⟩ => rfl
  | ⟨1, _⟩ => rfl

/-- The ten bins as the indices of the rank-one shape. -/
private def binEquiv : Fin 10 ≃ S10.Idx where
  toFun k := ix1 k
  invFun i := (i ⟨0, Nat.one_pos⟩ : Fin 10)
  left_inv _ := rfl
  right_inv i := (eq_ix1 i).symm

/-- Dropping the unit middle axis: row `r`, bin `k` of the reshaped array is entry (r, 0, k). -/
private theorem cast_row {α : Type} (x : S2x1x10.Idx → α) (r : Fin 2) (k : Fin 10) :
    shapeCast S2x10 x shapeCasts_S2x1x10_S2x10 (ix2 r k) = x (ix3 r 0 k) := by
  refine shapeCast_apply x _ _ _ ?_
  rw [Shape.rowMajor_val_three, Shape.rowMajor_val_two]
  show (r.val * 1 + 0) * 10 + k.val = r.val * 10 + k.val
  omega

/-- The fold of the word sum over the two rows, from `b`. -/
private theorem fold_two (g : Fin 2 → BitVec 32) (b : BitVec 32) :
    (Finset.univ : Finset (Fin 2)).fold IntOp.addi b g = g 0 + (g 1 + b) := rfl

/-- The integer reduction over the two rows, from zero, at bin `k`: the sum of the two counts. -/
private theorem cnt_apply (a3 : S2x1x10.Idx → BitVec 32) (k : Fin 10) :
    Host.reduce IntOp.addi (fun i => shapeCast S2x10 a3 shapeCasts_S2x1x10_S2x10 i) (constantI S_ 32 0#32)
        reducesTo_S2x10_S10_d0 h_S_ (ix1 k)
      = a3 (ix3 0 0 k) + a3 (ix3 1 0 k) := by
  have h : S2x10.Reduces [0] S10 := by decide
  rw [Host.reduce_eq_fold_single IntOp.addi _ _ reducesTo_S2x10_S10_d0 h h_S_ (ix1 k)]
  refine (fold_two _ _).trans ?_
  show shapeCast S2x10 a3 shapeCasts_S2x1x10_S2x10 (h.lift (ix1 k) (0 : Fin 2))
      + (shapeCast S2x10 a3 shapeCasts_S2x1x10_S2x10 (h.lift (ix1 k) (1 : Fin 2)) + 0#32) = _
  rw [lift_row h k 0, lift_row h k 1, cast_row, cast_row, BitVec.add_zero]

/-- The float reduction over the two rows, from zero, at bin `k`: zero plus the sum of the two entries. -/
private theorem sum_apply (a4 : S2x1x10.Idx → EReal) (k : Fin 10) :
    Host.reduceAdd (F := Ideal) (φ := .f32) (fun i => shapeCast S2x10 a4 shapeCasts_S2x1x10_S2x10 i)
        (constant S_ .f32 0x00000000#32) reducesTo_S2x10_S10_d0 h_S_ (ix1 k)
      = z32 + (a4 (ix3 0 0 k) + a4 (ix3 1 0 k)) := by
  have h : S2x10.Reduces [0] S10 := by decide
  show Ideal.hostReduceAdd reducesTo_S2x10_S10_d0 _ z32 (ix1 k) = _
  rw [Ideal.hostReduceAdd_single reducesTo_S2x10_S10_d0 h]
  refine congrArg (z32 + ·) ?_
  refine (Fin.sum_univ_two (fun r : Fin 2 => shapeCast S2x10 a4 shapeCasts_S2x1x10_S2x10 (h.lift (ix1 k) r))).trans ?_
  rw [lift_row h k 0, lift_row h k 1, cast_row, cast_row]

/-- The float reduction over the ten bins into a scalar, from zero: zero plus the sum over the bins. -/
private theorem total_apply (x : S10.Idx → EReal) (i : S_.Idx) :
    Host.reduceAdd (F := Ideal) (φ := .f32) x (constant S_ .f32 0x00000000#32) reducesTo_S10_S_d0 h_S_ i
      = z32 + ∑ k : Fin 10, x (ix1 k) := by
  show Ideal.hostReduceAdd reducesTo_S10_S_d0 x z32 i = _
  rw [Ideal.hostReduceAdd_total reducesTo_S10_S_d0 (fun b => b.elim0)]
  exact congrArg (z32 + ·) (Equiv.sum_comp binEquiv x).symm

/-- At the extended reals the epilogue is the per-bin closing formula of the summed rows. -/
theorem tailFn_ideal (c : Dev nD) (a3 : S2x1x10.Idx → BitVec 32) (a4 : S2x1x10.Idx → EReal) :
    tailFn (F := Ideal) c a3 a4
      = fun _ => kerLoss (fun k => (((a3 (ix3 0 0 k) + a3 (ix3 1 0 k)).toInt : ℝ) : EReal))
          (fun k => z32 + (a4 (ix3 0 0 k) + a4 (ix3 1 0 k))) := by
  funext i
  -- the formula over any reading of the two per-bin reductions
  have key : ∀ (C : Fin 10 → BitVec 32) (T : Fin 10 → EReal)
      (hC : ∀ k, Host.reduce IntOp.addi (fun i => shapeCast S2x10 a3 shapeCasts_S2x1x10_S2x10 i) (constantI S_ 32 0#32)
        reducesTo_S2x10_S10_d0 h_S_ (ix1 k) = C k)
      (hT : ∀ k, Host.reduceAdd (F := Ideal) (φ := .f32) (fun i => shapeCast S2x10 a4 shapeCasts_S2x1x10_S2x10 i)
        (constant S_ .f32 0x00000000#32) reducesTo_S2x10_S10_d0 h_S_ (ix1 k) = T k),
      tailFn (F := Ideal) c a3 a4 i = kerLoss (fun k => (((C k).toInt : ℝ) : EReal)) T := by
    intro C T hC hT
    unfold kerLoss
    show Ideal.div (Host.reduceAdd (F := Ideal) (φ := .f32) _ (constant S_ .f32 0x00000000#32) reducesTo_S10_S_d0 h_S_ i)
        (max (Host.reduceAdd (F := Ideal) (φ := .f32) _ (constant S_ .f32 0x00000000#32) reducesTo_S10_S_d0 h_S_ i) one32) * one32 = _
    rw [total_apply, total_apply]
    refine congrArg₂ (fun x y : EReal => Ideal.div (z32 + x) (max (z32 + y) one32) * one32)
      (Finset.sum_congr rfl fun k _ => ?_) (Finset.sum_congr rfl fun k _ => ?_)
    · beta_reduce; rw [← hC k, ← hT k]; rfl
    · beta_reduce; rw [← hC k]; rfl
  exact key _ _ (cnt_apply a3) (sum_apply a4)

end Cert.KernelIdeal.Tile

end
-- ==== Proof.Blocks.lean ====
/-
  Where a tile's positions lie in the [16384, 1000] arrays.

  The three arrays are re-laid row-major as [16000, 1024] and cut into 20 tiles of 800 rows, tile t = 10·q + j going
  to core q as its tile j. Position (r, l) of tile t is flat position (800·t + r)·1024 + l, that is element
  (p / 1000, p % 1000) of the original array. Every element lies in exactly one tile at one position.
-/
import proofs.«426658_j61873298866306_3_alg».proof.Proof.Gen.KernelIdeal.Frame
import Idealize.ShloMosaic.Lib.Pipeline.Value
import Idealize.ShloMosaic.Lib.ValueIdx

noncomputable section

namespace Cert.KernelIdeal.Tile

open Idealize.ShloMosaic Idealize.ShloMosaic.ValueIdx Idealize.ShloMosaic.TcCoe Idealize.SL.Sem Cert.KernelIdeal Cert.KernelIdeal.Gen

/-- The flat position of position y of tile t. -/
def flatPos (t : Fin 20) (y : S800x1024.Idx) : ℕ := (800 * t.val + (y 0).val) * 1024 + (y 1).val

theorem flatPos_lt (t : Fin 20) (y : S800x1024.Idx) : flatPos t y < 16384000 := by
  have h0 : (y 0).val < 800 := (y 0).isLt
  have h1 : (y 1).val < 1024 := (y 1).isLt
  have ht : t.val < 20 := t.isLt
  unfold flatPos
  omega

/-- The element of the [16384, 1000] arrays at position y of tile t. -/
def gidx (t : Fin 20) (y : S800x1024.Idx) : S16384x1000.Idx :=
  ix2 (⟨flatPos t y / 1000, by have := flatPos_lt t y; omega⟩ : Fin 16384) (⟨flatPos t y % 1000, Nat.mod_lt _ (by decide)⟩ : Fin 1000)

/-- A flat position is put together again from its tile p / 819200, its row (p / 1024) % 800 and its lane p % 1024. -/
private theorem flat_of_parts (p : ℕ) : (800 * (p / 819200) + p / 1024 % 800) * 1024 + p % 1024 = p := by
  have hq : p / 819200 = p / 1024 / 800 := by rw [Nat.div_div_eq_div_mul]
  rw [hq, Nat.div_add_mod, Nat.div_add_mod']

/-- Tiles × positions are the elements, each once. -/
def tileEquiv : Fin 20 × S800x1024.Idx ≃ S16384x1000.Idx where
  toFun p := gidx p.1 p.2
  -- element (i₀, i₁) has flat position p = 1000·i₀ + i₁: tile p / 819200, row (p / 1024) % 800, lane p % 1024
  invFun i :=
    ((⟨((i 0).val * 1000 + (i 1).val) / 819200, by
        have h0 : (i 0).val < 16384 := (i 0).isLt
        have h1 : (i 1).val < 1000 := (i 1).isLt
        omega⟩ : Fin 20),
      ix2 (⟨((i 0).val * 1000 + (i 1).val) / 1024 % 800, Nat.mod_lt _ (by decide)⟩ : Fin 800)
        (⟨((i 0).val * 1000 + (i 1).val) % 1024, Nat.mod_lt _ (by decide)⟩ : Fin 1024))
  left_inv := by
    rintro ⟨t, y⟩
    have h0 : (y 0).val < 800 := (y 0).isLt
    have h1 : (y 1).val < 1024 := (y 1).isLt
    have ht : t.val < 20 := t.isLt
    have e : flatPos t y = (800 * t.val + (y 0).val) * 1024 + (y 1).val := rfl
    refine Prod.ext (Fin.ext ?_) (funext fun a => Fin.ext ?_)
    · show (flatPos t y / 1000 * 1000 + flatPos t y % 1000) / 819200 = t.val
      omega
    · match a with
      | ⟨0, _⟩ =>
        show (flatPos t y / 1000 * 1000 + flatPos t y % 1000) / 1024 % 800 = (y 0).val
        omega
      | ⟨1, _⟩ =>
        show (flatPos t y / 1000 * 1000 + flatPos t y % 1000) % 1024 = (y 1).val
        omega
  right_inv := by
    intro i
    have h0 : (i 0).val < 16384 := (i 0).isLt
    have h1 : (i 1).val < 1000 := (i 1).isLt
    refine funext fun a => Fin.ext ?_
    match a with
    | ⟨0, _⟩ =>
      show ((800 * (((i 0).val * 1000 + (i 1).val) / 819200) + ((i 0).val * 1000 + (i 1).val) / 1024 % 800) * 1024
        + ((i 0).val * 1000 + (i 1).val) % 1024) / 1000 = (i 0).val
      rw [flat_of_parts]
      omega
    | ⟨1, _⟩ =>
      show ((800 * (((i 0).val * 1000 + (i 1).val) / 819200) + ((i 0).val * 1000 + (i 1).val) / 1024 % 800) * 1024
        + ((i 0).val * 1000 + (i 1).val) % 1024) % 1000 = (i 1).val
      rw [flat_of_parts]
      omega

theorem tileEquiv_apply (t : Fin 20) (y : S800x1024.Idx) : tileEquiv (t, y) = gidx t y := rfl

/-- Each input window's block index at a point: the point's number on the rows, 0 on the lanes (the index map sends
    grid point (q, j) to block (10·q + j, 0), and the grid [2, 10] is numbered row-major). -/
private theorem index0 : ∀ t : Fin grid0.N, win0_0.index t 0 = t.val ∧ win0_0.index t 1 = 0 := by decide +kernel
private theorem index1 : ∀ t : Fin grid0.N, win0_1.index t 0 = t.val ∧ win0_1.index t 1 = 0 := by decide +kernel
private theorem index2 : ∀ t : Fin grid0.N, win0_2.index t 0 = t.val ∧ win0_2.index t 1 = 0 := by decide +kernel

/-- A [16384, 1000] array re-laid row-major as [16000, 1024], read at row R and lane l, is the array at the element with
    the same flat position: 1000·k₀ + k₁ = 1024·R + l. -/
private theorem relaid_apply {α : Type} (x : S16384x1000.Idx → α) (j : S16000x1024.Idx) (k : S16384x1000.Idx)
    (hk : (k 0).val * 1000 + (k 1).val = (j 0).val * 1024 + (j 1).val) :
    shapeCast S16000x1024 x shapeCasts_S16384x1000_S16000x1024 j = x k :=
  shapeCast_apply x _ j k (by rw [Shape.rowMajor_val_two, Shape.rowMajor_val_two]; exact hk)

theorem pt20 (t : Fin cfg0.N) : t.val < 20 := lt_of_lt_of_eq t.isLt N_0

variable {F : FTy → Type} [FloatOps F]
variable (m : (ℓ : Loc nD τ sig) → Buf (Elt F) ℓ)

/-- Window 0's array when the region is entered: argument 0 re-laid as [16000, 1024]. -/
private theorem relaid0 (c : Dev nD) : (V m c main_v0 : S16000x1024.Idx → Elt F .f32)
    = shapeCast S16000x1024 (m ((c : Thread nD τ).loc main_arg0)) shapeCasts_S16384x1000_S16000x1024 := by
  dsimp only [Gen.V, Gen.V0]
  simp only [hostOps0, List.flatten_cons, List.flatten_nil, List.append_nil]
  after_results
  rfl
/-- Window 1's array when the region is entered: argument 1 re-laid as [16000, 1024]. -/
private theorem relaid1 (c : Dev nD) : (V m c main_v1 : S16000x1024.Idx → Elt F .f32)
    = shapeCast S16000x1024 (m ((c : Thread nD τ).loc main_arg1)) shapeCasts_S16384x1000_S16000x1024 := by
  dsimp only [Gen.V, Gen.V0]
  simp only [hostOps0, List.flatten_cons, List.flatten_nil, List.append_nil]
  after_results
  rfl
/-- Window 2's array when the region is entered: argument 2 re-laid as [16000, 1024]. -/
private theorem relaid2 (c : Dev nD) : (V m c main_v2 : S16000x1024.Idx → Elt F .f32)
    = shapeCast S16000x1024 (m ((c : Thread nD τ).loc main_arg2)) shapeCasts_S16384x1000_S16000x1024 := by
  dsimp only [Gen.V, Gen.V0]
  simp only [hostOps0, List.flatten_cons, List.flatten_nil, List.append_nil]
  after_results
  rfl

/-- Input window w's block at point t, read at a position, is the argument array at that position's element. -/
theorem iblk0_apply (c : Dev nD) (t : Fin cfg0.N) (y : S800x1024.Idx) :
    (iblk m c 0 t : Vec F S800x1024 .f32) y = m ((c : Thread nD τ).loc main_arg0) (gidx ⟨t.val, pt20 t⟩ y) := by
  have hi := index0 t
  have h0 : (y 0).val < 800 := (y 0).isLt
  have h1 : (y 1).val < 1024 := (y 1).isLt
  have e : flatPos ⟨t.val, pt20 t⟩ y = (800 * t.val + (y 0).val) * 1024 + (y 1).val := rfl
  unfold iblk
  rw [View.read_apply]
  show V m c main_v0 (((cfg0.win 0).blk t).view.emb y) = _
  rw [relaid0 m c]
  refine relaid_apply _ _ _ ?_
  show flatPos ⟨t.val, pt20 t⟩ y / 1000 * 1000 + flatPos ⟨t.val, pt20 t⟩ y % 1000
    = (win0_0.index t 0 * 800 + 1 * (y 0).val) * 1024 + (win0_0.index t 1 * 1024 + 1 * (y 1).val)
  rw [hi.1, hi.2]
  omega
theorem iblk1_apply (c : Dev nD) (t : Fin cfg0.N) (y : S800x1024.Idx) :
    (iblk m c 1 t : Vec F S800x1024 .f32) y = m ((c : Thread nD τ).loc main_arg1) (gidx ⟨t.val, pt20 t⟩ y) := by
  have hi := index1 t
  have h0 : (y 0).val < 800 := (y 0).isLt
  have h1 : (y 1).val < 1024 := (y 1).isLt
  have e : flatPos ⟨t.val, pt20 t⟩ y = (800 * t.val + (y 0).val) * 1024 + (y 1).val := rfl
  unfold iblk
  rw [View.read_apply]
  show V m c main_v1 (((cfg0.win 1).blk t).view.emb y) = _
  rw [relaid1 m c]
  refine relaid_apply _ _ _ ?_
  show flatPos ⟨t.val, pt20 t⟩ y / 1000 * 1000 + flatPos ⟨t.val, pt20 t⟩ y % 1000
    = (win0_1.index t 0 * 800 + 1 * (y 0).val) * 1024 + (win0_1.index t 1 * 1024 + 1 * (y 1).val)
  rw [hi.1, hi.2]
  omega
theorem iblk2_apply (c : Dev nD) (t : Fin cfg0.N) (y : S800x1024.Idx) :
    (iblk m c 2 t : Vec F S800x1024 .f32) y = m ((c : Thread nD τ).loc main_arg2) (gidx ⟨t.val, pt20 t⟩ y) := by
  have hi := index2 t
  have h0 : (y 0).val < 800 := (y 0).isLt
  have h1 : (y 1).val < 1024 := (y 1).isLt
  have e : flatPos ⟨t.val, pt20 t⟩ y = (800 * t.val + (y 0).val) * 1024 + (y 1).val := rfl
  unfold iblk
  rw [View.read_apply]
  show V m c main_v2 (((cfg0.win 2).blk t).view.emb y) = _
  rw [relaid2 m c]
  refine relaid_apply _ _ _ ?_
  show flatPos ⟨t.val, pt20 t⟩ y / 1000 * 1000 + flatPos ⟨t.val, pt20 t⟩ y % 1000
    = (win0_2.index t 0 * 800 + 1 * (y 0).val) * 1024 + (win0_2.index t 1 * 1024 + 1 * (y 1).val)
  rw [hi.1, hi.2]
  omega

end Cert.KernelIdeal.Tile

end
-- ==== Proof.KValue.lean ====
/-
  The kernel program's result at the extended reals.

  Reading the frame run: each result array's row q is core q's accumulator after its ten tiles, that is the 32-bit
  sum of the tiles' counts (no wrap: at most 16384000 in all) and the sum of the tiles' cross-entropy sums; tiles ×
  positions are the elements of the arrays, each once; so the host epilogue receives the true per-bin counts and
  sums, and returns the per-bin closing formula of the three argument arrays.
-/
import proofs.«426658_j61873298866306_3_alg».proof.Proof.Gen.KernelIdeal.Frame
import proofs.«426658_j61873298866306_3_alg».proof.Proof.TileIdeal
import proofs.«426658_j61873298866306_3_alg».proof.Proof.Accum
import proofs.«426658_j61873298866306_3_alg».proof.Proof.Tail
import proofs.«426658_j61873298866306_3_alg».proof.Proof.Blocks
import proofs.«426658_j61873298866306_3_alg».proof.Proof.Algebra
import Mathlib.Algebra.BigOperators.Fin
import Mathlib.Algebra.Order.BigOperators.Group.Finset

noncomputable section

open scoped BigOperators

namespace Cert.KernelIdeal.KV

open Idealize.ShloMosaic Idealize.ShloMosaic.ValueIdx Idealize.ShloMosaic.TcCoe Idealize.SL.Sem Cert.KernelIdeal Cert.KernelIdeal.Gen Cert.KernelIdeal.Tile Cert.Ghm

variable (m : (ℓ : Loc nD τ sig) → Buf (Elt Ideal) ℓ) (ρ : Dev nD → PrngReg)

/-- The three argument arrays of core c, as functions of the element. -/
abbrev A0 (c : Dev nD) : S16384x1000.Idx → EReal := m ((c.tc : Thread nD τ).loc main_arg0)
abbrev A1 (c : Dev nD) : S16384x1000.Idx → EReal := m ((c.tc : Thread nD τ).loc main_arg1)
abbrev A2 (c : Dev nD) : S16384x1000.Idx → EReal := m ((c.tc : Thread nD τ).loc main_arg2)

/-- Bin k's count and cross-entropy sum over tile t. -/
def tcnt (c : Dev nD) (t : Fin 20) (k : Fin 10) : ℕ :=
  cntN (fun y : S800x1024.Idx => vld (A2 m c (gidx t y))) (fun y => binK (A0 m c (gidx t y)) (A1 m c (gidx t y))) k
def tbce (c : Dev nD) (t : Fin 20) (k : Fin 10) : EReal :=
  bsum (fun y : S800x1024.Idx => vld (A2 m c (gidx t y))) (fun y => binK (A0 m c (gidx t y)) (A1 m c (gidx t y)))
    (fun y => bce (A0 m c (gidx t y)) (A1 m c (gidx t y))) k

/-- The same by the tile's number, zero past the last tile. -/
def tcN (c : Dev nD) (k : Fin 10) (n : ℕ) : ℕ := if h : n < 20 then tcnt m c ⟨n, h⟩ k else 0
def tbN (c : Dev nD) (k : Fin 10) (n : ℕ) : EReal := if h : n < 20 then tbce m c ⟨n, h⟩ k else 0

theorem tcnt_le (c : Dev nD) (t : Fin 20) (k : Fin 10) : tcnt m c t k ≤ 819200 := tile_cnt_le _ _ _ k

/-- A tile's count, read off its three blocks. -/
theorem ptCnt_eq (c : Dev nD) (t : Fin cfg0.N) (k : Fin 10) :
    ptCnt m c t k = BitVec.ofNat 32 (tcnt m c ⟨t.val, pt20 t⟩ k) := by
  have e0 : xb0 m c t = fun y => A0 m c (gidx ⟨t.val, pt20 t⟩ y) := funext (iblk0_apply m c t)
  have e1 : xb1 m c t = fun y => A1 m c (gidx ⟨t.val, pt20 t⟩ y) := funext (iblk1_apply m c t)
  have e2 : xb2 m c t = fun y => A2 m c (gidx ⟨t.val, pt20 t⟩ y) := funext (iblk2_apply m c t)
  unfold ptCnt
  rw [e0, e1, e2]
  exact tile_cnt _ _ _ k

/-- A tile's cross-entropy sum, read off its blocks of real logits and targets. -/
theorem ptBce_eq (h0 : ∀ (c : Dev nD) e, ∃ r : ℝ, A0 m c e = (r : EReal)) (h1 : ∀ (c : Dev nD) e, ∃ r : ℝ, A1 m c e = (r : EReal))
    (c : Dev nD) (t : Fin cfg0.N) (k : Fin 10) :
    ptBce m c t k = tbce m c ⟨t.val, pt20 t⟩ k := by
  have e0 : xb0 m c t = fun y => A0 m c (gidx ⟨t.val, pt20 t⟩ y) := funext (iblk0_apply m c t)
  have e1 : xb1 m c t = fun y => A1 m c (gidx ⟨t.val, pt20 t⟩ y) := funext (iblk1_apply m c t)
  have e2 : xb2 m c t = fun y => A2 m c (gidx ⟨t.val, pt20 t⟩ y) := funext (iblk2_apply m c t)
  unfold ptBce
  rw [e0, e1, e2]
  exact tile_bce _ _ _ (fun y => h0 c _) (fun y => h1 c _) k

/-- The count accumulator after point n is the word of the sum of the tiles' counts since the core's first tile. -/
theorem accCnt_eq (c : Dev nD) (k : Fin 10) : ∀ (n : ℕ) (h : n < cfg0.N),
    accCnt m c n h k = BitVec.ofNat 32 (∑ i ∈ Finset.range (n % 10 + 1), tcN m c k (n - n % 10 + i))
  | 0, h => by
    have hN : cfg0.N = 20 := N_0
    unfold accCnt
    rw [ptCnt_eq]
    show (0#32 : BitVec 32) + _ = _
    rw [BitVec.zero_add]
    simp only [Nat.zero_mod, Nat.zero_add, Finset.sum_range_one, Nat.sub_self]
    unfold tcN
    rw [dif_pos (by omega)]
  | n + 1, h => by
    have hN : cfg0.N = 20 := N_0
    have h20 : n + 1 < 20 := by omega
    unfold accCnt
    by_cases hm : (n + 1) % 10 = 0
    · rw [if_pos hm, ptCnt_eq]
      show (0#32 : BitVec 32) + _ = _
      rw [BitVec.zero_add, hm]
      simp only [Nat.zero_add, Finset.sum_range_one, Nat.sub_zero, Nat.add_zero]
      unfold tcN
      rw [dif_pos h20]
    · rw [if_neg hm, accCnt_eq c k n (Nat.lt_of_succ_lt h), ptCnt_eq]
      show BitVec.ofNat 32 _ + BitVec.ofNat 32 _ = _
      rw [← BitVec.ofNat_add]
      have hr : (n + 1) % 10 + 1 = (n % 10 + 1) + 1 := by omega
      have hb : n + 1 - (n + 1) % 10 = n - n % 10 := by omega
      have hl : n - n % 10 + (n % 10 + 1) = n + 1 := by omega
      rw [hr, hb, Finset.sum_range_succ (fun i => tcN m c k (n - n % 10 + i)) (n % 10 + 1), hl]
      congr 2
      unfold tcN
      rw [dif_pos h20]

/-- The cross-entropy accumulator after point n is the sum of the tiles' sums since the core's first tile. -/
theorem accBce_eq (h0 : ∀ (c : Dev nD) e, ∃ r : ℝ, A0 m c e = (r : EReal)) (h1 : ∀ (c : Dev nD) e, ∃ r : ℝ, A1 m c e = (r : EReal))
    (c : Dev nD) (k : Fin 10) : ∀ (n : ℕ) (h : n < cfg0.N),
    accBce m c n h k = ∑ i ∈ Finset.range (n % 10 + 1), tbN m c k (n - n % 10 + i)
  | 0, h => by
    have hN : cfg0.N = 20 := N_0
    unfold accBce
    rw [ptBce_eq m h0 h1]
    show z32 + _ = _
    rw [z32_eq, zero_add]
    simp only [Nat.zero_mod, Nat.zero_add, Finset.sum_range_one, Nat.sub_self]
    unfold tbN
    rw [dif_pos (by omega)]
  | n + 1, h => by
    have hN : cfg0.N = 20 := N_0
    have h20 : n + 1 < 20 := by omega
    unfold accBce
    by_cases hm : (n + 1) % 10 = 0
    · rw [if_pos hm, ptBce_eq m h0 h1]
      show z32 + _ = _
      rw [z32_eq, zero_add, hm]
      simp only [Nat.zero_add, Finset.sum_range_one, Nat.sub_zero, Nat.add_zero]
      unfold tbN
      rw [dif_pos h20]
    · rw [if_neg hm, accBce_eq h0 h1 c k n (Nat.lt_of_succ_lt h), ptBce_eq m h0 h1]
      show (_ : EReal) + _ = _
      have hr : (n + 1) % 10 + 1 = (n % 10 + 1) + 1 := by omega
      have hb : n + 1 - (n + 1) % 10 = n - n % 10 := by omega
      have hl : n - n % 10 + (n % 10 + 1) = n + 1 := by omega
      rw [hr, hb, Finset.sum_range_succ (fun i => tbN m c k (n - n % 10 + i)) (n % 10 + 1), hl]
      congr 1
      unfold tbN
      rw [dif_pos h20]

/-- The two result arrays at their literal types. -/
abbrev r3 (c : Dev nD) : S2x1x10.Idx → BitVec 32 := res3 m c
abbrev r4 (c : Dev nD) : S2x1x10.Idx → EReal := res4 m c

/-- Row q of the count array: the word of core q's ten tiles' counts. -/
theorem res3_row (c : Dev nD) (q : Fin 2) (k : Fin 10) :
    r3 m c (ix3 q 0 k) = BitVec.ofNat 32 (∑ i ∈ Finset.range 10, tcN m c k (10 * q.val + i)) := by
  have hq := q.isLt
  show accCnt m c (10 * q.val + 9) _ k = _
  rw [accCnt_eq]
  have h1 : (10 * q.val + 9) % 10 + 1 = 10 := by omega
  have h2 : 10 * q.val + 9 - (10 * q.val + 9) % 10 = 10 * q.val := by omega
  rw [h1, h2]

theorem res4_row (h0 : ∀ (c : Dev nD) e, ∃ r : ℝ, A0 m c e = (r : EReal)) (h1 : ∀ (c : Dev nD) e, ∃ r : ℝ, A1 m c e = (r : EReal))
    (c : Dev nD) (q : Fin 2) (k : Fin 10) :
    r4 m c (ix3 q 0 k) = ∑ i ∈ Finset.range 10, tbN m c k (10 * q.val + i) := by
  have hq := q.isLt
  show accBce m c (10 * q.val + 9) _ k = _
  rw [accBce_eq m h0 h1]
  have h1 : (10 * q.val + 9) % 10 + 1 = 10 := by omega
  have h2 : 10 * q.val + 9 - (10 * q.val + 9) % 10 = 10 * q.val := by omega
  rw [h1, h2]

/-- The twenty tiles' counts add up to the count over all elements. -/
theorem tcN_total (c : Dev nD) (k : Fin 10) :
    ∑ i ∈ Finset.range 20, tcN m c k i = cntN (fun e => vld (A2 m c e)) (fun e => binK (A0 m c e) (A1 m c e)) k := by
  rw [← Fin.sum_univ_eq_sum_range (fun i => tcN m c k i) 20]
  rw [← cntN_tiles tileEquiv (fun e => vld (A2 m c e)) (fun e => binK (A0 m c e) (A1 m c e)) k]
  refine Finset.sum_congr rfl fun t _ => ?_
  unfold tcN
  rw [dif_pos t.isLt]
  simp only [tileEquiv_apply]
  rfl

theorem tbN_total (c : Dev nD) (k : Fin 10) :
    ∑ i ∈ Finset.range 20, tbN m c k i
      = bsum (fun e => vld (A2 m c e)) (fun e => binK (A0 m c e) (A1 m c e)) (fun e => bce (A0 m c e) (A1 m c e)) k := by
  rw [← Fin.sum_univ_eq_sum_range (fun i => tbN m c k i) 20]
  rw [← bsum_tiles tileEquiv (fun e => vld (A2 m c e)) (fun e => binK (A0 m c e) (A1 m c e)) (fun e => bce (A0 m c e) (A1 m c e)) k]
  refine Finset.sum_congr rfl fun t _ => ?_
  unfold tbN
  rw [dif_pos t.isLt]
  simp only [tileEquiv_apply]
  rfl

theorem tcN_le (c : Dev nD) (k : Fin 10) (n : ℕ) : tcN m c k n ≤ 819200 := by
  unfold tcN
  split
  · exact tcnt_le m c _ k
  · exact Nat.zero_le _

/-- The two cores' count rows add, without wrapping, to the count over all elements, as a number. -/
theorem cnt_total (c : Dev nD) (k : Fin 10) :
    ((((r3 m c (ix3 0 0 k) + r3 m c (ix3 1 0 k)).toInt : ℤ) : ℝ) : EReal)
      = ((cntN (fun e => vld (A2 m c e)) (fun e => binK (A0 m c e) (A1 m c e)) k : ℝ) : EReal) := by
  rw [res3_row, res3_row, ← BitVec.ofNat_add]
  have hs : ∑ i ∈ Finset.range 10, tcN m c k (10 * (0 : Fin 2).val + i) + ∑ i ∈ Finset.range 10, tcN m c k (10 * (1 : Fin 2).val + i)
      = ∑ i ∈ Finset.range 20, tcN m c k i := by
    rw [show (20 : ℕ) = 10 + 10 from rfl, Finset.sum_range_add]
    simp
  rw [hs]
  have hle : ∑ i ∈ Finset.range 20, tcN m c k i ≤ 16384000 := by
    calc ∑ i ∈ Finset.range 20, tcN m c k i ≤ ∑ _i ∈ Finset.range 20, 819200 := Finset.sum_le_sum fun i _ => tcN_le m c k i
      _ = 16384000 := by simp
  have hnat : (BitVec.ofNat 32 (∑ i ∈ Finset.range 20, tcN m c k i)).toNat = ∑ i ∈ Finset.range 20, tcN m c k i := by
    rw [BitVec.toNat_ofNat]
    exact Nat.mod_eq_of_lt (by omega)
  rw [BitVec.toInt_eq_toNat_of_lt (by rw [hnat]; omega), hnat, tcN_total, Int.cast_natCast]

/-- The two cores' cross-entropy rows add to the sum over all elements. -/
theorem bce_total (h0 : ∀ (c : Dev nD) e, ∃ r : ℝ, A0 m c e = (r : EReal)) (h1 : ∀ (c : Dev nD) e, ∃ r : ℝ, A1 m c e = (r : EReal))
    (c : Dev nD) (k : Fin 10) :
    z32 + (r4 m c (ix3 0 0 k) + r4 m c (ix3 1 0 k))
      = bsum (fun e => vld (A2 m c e)) (fun e => binK (A0 m c e) (A1 m c e)) (fun e => bce (A0 m c e) (A1 m c e)) k := by
  rw [res4_row m h0 h1, res4_row m h0 h1, z32_eq, zero_add, ← tbN_total]
  rw [show (20 : ℕ) = 10 + 10 from rfl, Finset.sum_range_add]
  simp

/-- Every weakly fair execution ends with the result at the per-bin formula of the argument arrays, the arguments
    unchanged — for real logits and targets. -/
theorem run
    (h0 : ∀ (c : Dev nD) e, ∃ r : ℝ, m ((c.tc : Thread nD τ).loc main_arg0) e = (r : EReal))
    (h1 : ∀ (c : Dev nD) e, ∃ r : ℝ, m ((c.tc : Thread nD τ).loc main_arg1) e = (r : EReal)) :
    θ_run defs (onTc (τ := τ) (main (F := Ideal))) ⟨m, fun _ => 0, ρ⟩ (fun r => ∀ c : Dev nD,
      r.2.mem ((c.tc : Thread nD τ).loc main_v20)
        = (fun _ => lossK (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩
  rw [(h c).2 main_v20 (Pipeline.mem_restRefs_of main_v20 (by decide) (by decide)), tail_result, final3, final4, tailFn_ideal]
  funext _
  unfold lossK
  exact congrArg₂ kerLoss (funext fun k => cnt_total m c k) (funext fun k => bce_total m h0 h1 c k)

end Cert.KernelIdeal.KV

end
-- ==== Proof.LibScatterGather.lean ====
/-
  A scatter that adds rows into a table, and a take from a vector, read at an index.

  `jax.ops.segment_sum(u, seg, num_segments = N)` over n update rows is a `stablehlo.scatter` with an `add` body whose
  scatter indices are the [n × 1] column of segment numbers: the table's axis 0 is the inserted, scatter-indexed axis
  (and, for a rank-2 table, its axis 1 is the update's one window axis), and the index vector lies on axis 1 of the
  scatter indices. At the extended reals its entry (v, j) is the table's entry plus the sum of the update entries
  (e, j) over the rows e whose segment number, read signed, is v; a row whose number is not a row of the table is
  dropped. `vec[idx]` over a vector of length N and n positions is the `stablehlo.gather` with the same index column,
  the vector's one axis collapsed and start-indexed: entry p is the vector at position p's index read signed and
  clamped into 0 … N − 1.
-/
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

/-- WHERE AN UPDATE LANDS. Update index `j` lands at operand index `i` exactly when on every operand axis the start
    (read signed) plus the window coordinate is `i`'s coordinate; a sum outside the operand lands nowhere. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

/-- A rank-1 index set is its one coordinate's range. -/
def idxFin1 {n : Nat} : (⟨1, ![n]⟩ : Shape).Idx ≃ Fin n where
  toFun i := i 0
  invFun a := ix1 a
  left_inv i := (eq_ix1 i).symm
  right_inv _ := rfl

/-- The start of update (e, c)'s window on the table's axis 0 is row e's scatter index read signed. -/
theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by
  -- the update's axis 1 is its window axis, so each of its scatter axes is axis 0
  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- Update (e, c) lands at entry (v, j) of the table exactly when row e's scatter index, read signed, is v and its
    column c is j: axis 0 of the table is inserted (start only), axis 1 carries the window coordinate (no start). -/
theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

/-- ROWS ADDED INTO A TABLE. An accumulating scatter into an [N × C] table of n update rows [n × C] at an [n × 1]
    column of row numbers (`huw` … `hivd`: the printed dimension numbers, each by `rfl`), at the extended reals:
    entry (v, j) is the table's plus the sum over the update rows e whose number, read signed, is v, of the update's
    entry (e, j). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  -- the filtered sum as a sum over all update entries, row by row
  rw [Finset.sum_filter, sum_idx2]
  refine Finset.sum_congr rfl (fun e _ => ?_)
  by_cases hc : (idx (ix2 e (0 : Fin 1))).toInt = (v.val : ℤ)
  · -- a row whose number is v gives its entry in column j and nothing else
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · -- a row whose number is not v gives nothing
    rw [if_neg hc]
    apply Finset.sum_eq_zero
    intro c _
    rw [if_neg (fun h => hc ((rows_lands d huw hiw hsd hivd idx e c v j).1 h).1)]

/-- The start of update e's window on the vector's axis is its scatter index read signed. -/
theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by
  -- the update has one axis, so each of its scatter axes is axis 0
  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

/-- Update e lands at position v of the vector exactly when its scatter index, read signed, is v. -/
theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  -- the vector's axis is inserted: no window coordinate on it
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

/-- ENTRIES ADDED INTO A VECTOR. The same for a vector of length N and n scalar updates (no window axis). -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  -- the update indices are the numbers of the updates
  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

/-- A TAKE FROM A VECTOR. A gather from a vector of length N at an [n × 1] column of start indices, the vector's
    axis collapsed and start-indexed, no offset and no batching axes, the index vector on axis 1: entry p is the
    vector at position p's start index read SIGNED and CLAMPED into 0 … N − 1. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  -- the result has one axis, so each of its batch axes is axis 0
  have hbatchAll : ∀ y ∈ d.batchDims, y = 0 := by
    intro y _
    apply Fin.ext
    have := y.isLt
    change y.val < 1 at this
    show y.val = 0
    omega
  have hb : ∀ a : Fin 1, a ∉ d.operandBatchingDims := by intro a; rw [hob]; exact List.not_mem_nil
  funext a
  apply Fin.ext
  match a with
  | ⟨0, _⟩ =>
    -- the vector's one axis: the clamped start index; no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show (d.operandIdx (ix1 p) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 1) d.startIndexMap = 0
      rw [hsim]; simp

end Cert.Lib

end
-- ==== Proof.RValue.lean ====
/-
  The reference program's result at the extended reals.

  Its operations, read one at a time at an index: the scatter-add gathers, per bin, the number of valid elements of
  the bin; the take reads that count back at every element's bin; the weights, the cross entropy and the two sums
  follow the per-element closing formula.
-/
import proofs.«426658_j61873298866306_3_alg».proof.Proof.RefReadP
import proofs.«426658_j61873298866306_3_alg».proof.Proof.LibScatterGather
import proofs.«426658_j61873298866306_3_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RV

open Idealize.ShloMosaic Idealize.ShloMosaic.ValueIdx Idealize.SL.Sem Cert.ReferenceIdeal Cert.ReferenceIdeal.Gen Cert.Ghm

section Entries

/-! ## Words: the bins 0 … 9 as 32-bit words -/

/-- A word 0 … 9 read signed is its number. -/
private theorem word_toInt (k : Fin 10) : (BitVec.ofNat 32 k.val).toInt = (k.val : ℤ) := by
  revert k; decide

/-- A word 0 … 9 read signed and clamped into 0 … 9 is its number. -/
private theorem word_clamp (k : Fin 10) : min (BitVec.ofNat 32 k.val).toInt.toNat (10 - 1) = k.val := by
  revert k; decide

/-- A word 0 … 9 is not negative, so the wrap of a negative index leaves it. -/
private theorem word_wrap (k : Fin 10) :
    Scalar.select (IntOp.cmpi .slt (BitVec.ofNat 32 k.val) 0#32) (IntOp.addi (BitVec.ofNat 32 k.val) 10#32)
      (BitVec.ofNat 32 k.val) = BitVec.ofNat 32 k.val := by
  revert k; decide

/-! ## The elementwise operations at one entry -/

variable (x0 x1 x2 : (⟨S16384x1000, .f32⟩ : BufTy).Contents (Elt Ideal))

/-- The validity bit. -/
private theorem v9_eq (j : S16384x1000.Idx) : ReadP.val_main_v9 (F := Ideal) x2 j = vld (x2 j) := by
  rw [ReadP.val_main_v9_apply, ReadP.val_main_v8_apply, ReadP.val_main_cst_1_apply]
  rfl

/-- The word 1.0 is the number 1. -/
private theorem one_word : (FloatOps.ofBits (F := Ideal) .f32 0x3F800000#32 : EReal) = 1 := by
  show one32 = 1
  rw [one32_eq]
  rfl

/-- The clipped bin. -/
private theorem v16_eq (j : S16384x1000.Idx) : ReadP.val_main_v16 (F := Ideal) x0 x1 j = binW (x0 j) (x1 j) := by
  rw [ReadP.val_main_v16_apply, ReadP.val_main_call0_v4_apply, ReadP.val_main_call0_v3_apply, ReadP.val_main_c_5_apply,
    ReadP.val_main_call0_v2_apply, ReadP.val_main_call0_v1_apply, ReadP.val_main_call0_v0_apply, ReadP.val_main_c_apply,
    ReadP.val_main_v15_apply, ReadP.val_main_v14_apply, ReadP.val_main_v13_apply, ReadP.val_main_cst_4_apply,
    ReadP.val_main_v7_apply, ReadP.val_main_v6_apply, ReadP.val_main_v5_apply, ReadP.val_main_v4_apply,
    ReadP.val_main_cst_0_apply, ReadP.val_main_v3_apply, ReadP.val_main_v2_apply, ReadP.val_main_cst_apply,
    ReadP.val_main_v1_apply, ReadP.val_main_v0_apply, one_word]
  rfl

/-- The cross entropy. -/
private theorem v59_eq (j : S16384x1000.Idx) : ReadP.val_main_v59 (F := Ideal) x0 x1 j = bce (x0 j) (x1 j) := by
  have hz : z32 - max (z32 - x0 j) (-(z32 - x0 j)) = -(max (z32 - x0 j) (-(z32 - x0 j))) := by
    rw [z32_eq]; exact zero_sub _
  unfold bce softplus
  rw [hz, ReadP.val_main_v59_apply, ReadP.val_main_v58_apply, ReadP.val_main_v57_apply, ReadP.val_main_v56_apply,
    ReadP.val_main_v55_apply, ReadP.val_main_v54_apply, ReadP.val_main_v53_apply, ReadP.val_main_v52_apply,
    ReadP.val_main_v51_apply, ReadP.val_main_v50_apply, ReadP.val_main_v49_apply, ReadP.val_main_v48_apply,
    ReadP.val_main_v47_apply, ReadP.val_main_v46_apply, ReadP.val_main_v45_apply, ReadP.val_main_cst_15_apply]
  rfl

/-- The take's start index: the bin, which the wrap of negative indices leaves. -/
private theorem v31_eq (j : S16384x1000.Idx) :
    ReadP.val_main_v31 (F := Ideal) x0 x1 j = BitVec.ofNat 32 (binK (x0 j) (x1 j)).val := by
  rw [ReadP.val_main_v31_apply, ReadP.val_main_v28_apply, ReadP.val_main_v27_apply, ReadP.val_main_c_9_apply,
    ReadP.val_main_v30_apply, ReadP.val_main_v29_apply, ReadP.val_main_c_10_apply, v16_eq, binW_eq_binK]
  exact word_wrap _

/-! ## Counting -/

/-- A sum of 0/1 reals over a finite set is the number of its elements that count 1. -/
private theorem sum_ind_card {E : Type} (s : Finset E) (p : E → Prop) [DecidablePred p] :
    ∑ e ∈ s, (if p e then ((1 : ℝ) : EReal) else ((0 : ℝ) : EReal)) = (((s.filter p).card : ℝ) : EReal) := by
  classical
  induction s using Finset.induction_on with
  | empty => simp
  | insert a s ha ih =>
    rw [Finset.sum_insert ha, ih, Finset.filter_insert]
    by_cases h : p a
    · rw [if_pos h, if_pos h, Finset.card_insert_of_notMem (fun hm => ha (Finset.mem_filter.1 hm).1), ← EReal.coe_add]
      congr 1
      push_cast
      ring
    · rw [if_neg h, if_neg h, ← EReal.coe_add, zero_add]

/-- The key of a scattered entry, read signed, is bin k exactly when the entry's bin is k. -/
private theorem key_iff (a k : Fin 10) : (BitVec.ofNat 32 a.val).toInt = (k.val : ℤ) ↔ a = k := by
  rw [word_toInt]
  constructor
  · intro h
    exact Fin.ext (by exact_mod_cast h)
  · rintro rfl
    rfl

/-! ## The flat arrays: row-major position -/

/-- Flat position e of the row-major order is entry (e / 1000, e % 1000). -/
private def pos : Fin 16384000 ≃ S16384x1000.Idx where
  toFun e := ix2 (⟨e.val / 1000, by have := e.isLt; omega⟩ : Fin 16384) (⟨e.val % 1000, by omega⟩ : Fin 1000)
  invFun j := ⟨(j 0).val * 1000 + (j 1).val, by have h0 := idx2_lt0 j; have h1 := idx2_lt1 j; omega⟩
  left_inv e := Fin.ext (by show e.val / 1000 * 1000 + e.val % 1000 = e.val; omega)
  right_inv j := by
    have h0 := idx2_lt0 j
    have h1 := idx2_lt1 j
    funext a
    match a with
    | ⟨0, _⟩ => exact Fin.ext (by show ((j 0).val * 1000 + (j 1).val) / 1000 = (j 0).val; omega)
    | ⟨1, _⟩ => exact Fin.ext (by show ((j 0).val * 1000 + (j 1).val) % 1000 = (j 1).val; omega)

/-- Row e of the index column reads the reshaped bins at position e. -/
private theorem flat_bin (e : Fin 16384000) :
    ReadP.idx_main_v19 (ReadP.idx_main_v21 (ix2 e (0 : Fin 1))) = pos e := by
  funext a
  match a with
  | ⟨0, _⟩ => rfl
  | ⟨1, _⟩ => rfl

/-- Update e reads the reshaped validity bits at position e. -/
private theorem flat_vld (e : Fin 16384000) : ReadP.idx_main_v17 (ix1 e) = pos e := by
  funext a
  match a with
  | ⟨0, _⟩ => rfl
  | ⟨1, _⟩ => rfl

/-- The take's start index of entry j is the wrapped bin of entry j. -/
private theorem take_idx (j : S16384x1000.Idx) : ReadP.idx_main_v32 (takeIdx j) = j := by
  funext a
  match a with
  | ⟨0, _⟩ => rfl
  | ⟨1, _⟩ => rfl

/-! ## The per-bin counts: the scatter-add and the take -/

/-- The count of bin k, as the programs hold it. -/
private abbrev cnt (k : Fin 10) : EReal :=
  ((cntN (fun e => vld (x2 e)) (fun e => binK (x0 e) (x1 e)) k : ℝ) : EReal)

/-- The scatter-add leaves, at bin k, the number of valid entries of bin k. -/
private theorem v22_eq (k : Fin 10) : ReadP.val_main_v22 (F := Ideal) x0 x1 x2 (ix1 k) = cnt x0 x1 x2 k := by
  unfold ReadP.val_main_v22
  refine (Cert.Lib.scatterAdd_vec scatter_S10_S16384000x1_S16384000_n_0_0_1 rfl rfl rfl rfl _ _ _ k).trans ?_
  rw [ReadP.val_main_v20_apply, ReadP.val_main_cst_6_apply, Ideal.ofBits_def, Ideal.ofBits_zero_f32, zero_add]
  show _ = (((Finset.univ.filter
    (fun j : S16384x1000.Idx => vld (x2 j) = 1#1 ∧ binK (x0 j) (x1 j) = k)).card : ℝ) : EReal)
  refine Eq.trans ?_ (sum_ind_card Finset.univ
    (fun j : S16384x1000.Idx => vld (x2 j) = 1#1 ∧ binK (x0 j) (x1 j) = k))
  refine Fintype.sum_equiv pos _ _ (fun e => ?_)
  have h21 : ReadP.val_main_v21 (F := Ideal) x0 x1 (ix2 e (0 : Fin 1))
      = BitVec.ofNat 32 (binK (x0 (pos e)) (x1 (pos e))).val := by
    rw [ReadP.val_main_v21_apply, ReadP.val_main_v19_apply, flat_bin, v16_eq, binW_eq_binK]
  have h18 : ReadP.val_main_v18 (F := Ideal) x2 (ix1 e) = (((vld (x2 (pos e))).toNat : ℝ) : EReal) := by
    rw [ReadP.val_main_v18_apply, ReadP.val_main_v17_apply, flat_vld, v9_eq]
    rfl
  rw [h21, h18]
  by_cases hk : binK (x0 (pos e)) (x1 (pos e)) = k
  · rw [if_pos ((key_iff _ _).2 hk), vld_toNat]
    by_cases hv : vld (x2 (pos e)) = 1#1
    · rw [if_pos hv, if_pos ⟨hv, hk⟩, Nat.cast_one]
    · rw [if_neg hv, if_neg (fun h => hv h.1), Nat.cast_zero]
  · rw [if_neg (fun h => hk ((key_iff _ _).1 h)), if_neg (fun h => hk h.2)]
    rfl

/-- A table of ten entries read at a word 0 … 9, read signed and clamped into 0 … 9. -/
private theorem take_at (x : (⟨1, ![10]⟩ : Shape).Idx → EReal) (w : BitVec 32) (k : Fin 10)
    (hw : w = BitVec.ofNat 32 k.val) (h : min w.toInt.toNat (10 - 1) < 10) :
    x (ix1 ⟨min w.toInt.toNat (10 - 1), h⟩) = x (ix1 k) := by
  subst hw
  exact congrArg (fun a => x (ix1 a)) (Fin.ext (word_clamp k))

/-- The take reads, at entry j, the count of entry j's bin. -/
private theorem v33_eq (j : S16384x1000.Idx) :
    ReadP.val_main_v33 (F := Ideal) x0 x1 x2 j = cnt x0 x1 x2 (binK (x0 j) (x1 j)) := by
  unfold ReadP.val_main_v33
  refine (gather_take_apply (N := 10) (R := 16384) (C := 1000) (by decide)
    gather_S10_S16384x1000x1_S16384x1000_n_0_n_n_0_2_1_wf (ReadP.val_main_v22 (F := Ideal) x0 x1 x2)
    (ReadP.val_main_v32 (F := Ideal) x0 x1) j).trans ?_
  have hw : ReadP.val_main_v32 (F := Ideal) x0 x1 (takeIdx j) = BitVec.ofNat 32 (binK (x0 j) (x1 j)).val := by
    rw [ReadP.val_main_v32_apply, take_idx, v31_eq]
  exact (take_at _ _ _ hw _).trans (v22_eq x0 x1 x2 _)

/-! ## The two scalars: the number of valid entries and the number of non-empty bins, each at least 1 -/

private theorem v12_eq (i : S_.Idx) :
    ReadP.val_main_v12 (F := Ideal) x2 i = max (z32 + ∑ e, (((vld (x2 e)).toNat : ℝ) : EReal)) one32 := by
  rw [ReadP.val_main_v12_apply, ReadP.val_main_v11_apply, ReadP.val_main_cst_3_apply, ReadP.val_main_cst_2_apply]
  simp only [ReadP.val_main_v10_apply, v9_eq]
  rfl

private theorem v42_eq (i : S_.Idx) :
    ReadP.val_main_v42 (F := Ideal) x0 x1 x2 i
      = max (z32 + ∑ k : Fin 10, (((Ideal.cmp .ogt (cnt x0 x1 x2 k) z32).toNat : ℝ) : EReal)) one32 := by
  have hs : ∑ y : S10.Idx, ReadP.val_main_v25 (F := Ideal) x0 x1 x2 y
      = ∑ k : Fin 10, (((Ideal.cmp .ogt (cnt x0 x1 x2 k) z32).toNat : ℝ) : EReal) := by
    refine Fintype.sum_equiv Cert.Lib.idxFin1 _ _ (fun y => ?_)
    obtain ⟨k, rfl⟩ : ∃ k : Fin 10, y = ix1 k := ⟨y 0, eq_ix1 y⟩
    rw [ReadP.val_main_v25_apply, ReadP.val_main_v24_apply, ReadP.val_main_v23_apply, ReadP.val_main_cst_7_apply,
      v22_eq]
    rfl
  rw [ReadP.val_main_v42_apply, ReadP.val_main_v26_apply, ReadP.val_main_cst_14_apply, ReadP.val_main_cst_8_apply, hs]
  rfl

/-! ## The weighted entry and the result -/

/-- Entry j of the weighted cross entropies. -/
private theorem v60_eq (j : S16384x1000.Idx) :
    ReadP.val_main_v60 (F := Ideal) x0 x1 x2 j
      = Ideal.div
          (Scalar.select (IntOp.andi (vld (x2 j)) (Ideal.cmp .ogt (cnt x0 x1 x2 (binK (x0 j) (x1 j))) z32))
            (Ideal.div (max (z32 + ∑ e, (((vld (x2 e)).toNat : ℝ) : EReal)) one32)
              (max (cnt x0 x1 x2 (binK (x0 j) (x1 j))) one32)) z32)
          (max (z32 + ∑ k : Fin 10, (((Ideal.cmp .ogt (cnt x0 x1 x2 k) z32).toNat : ℝ) : EReal)) one32)
        * bce (x0 j) (x1 j) := by
  rw [ReadP.val_main_v60_apply, ReadP.val_main_v44_apply, ReadP.val_main_v43_apply, ReadP.val_main_v41_apply,
    ReadP.val_main_v36_apply, ReadP.val_main_v35_apply, ReadP.val_main_v34_apply, ReadP.val_main_cst_11_apply,
    ReadP.val_main_v40_apply, ReadP.val_main_v39_apply, ReadP.val_main_v38_apply, ReadP.val_main_v37_apply,
    ReadP.val_main_cst_12_apply, ReadP.val_main_call1_v1_apply, ReadP.val_main_call1_v0_apply,
    ReadP.val_main_cst_13_apply, v42_eq, v12_eq, v33_eq, v9_eq, v59_eq]
  rfl

end Entries

theorem ref_value (x0 x1 x2 : (⟨S16384x1000, .f32⟩ : BufTy).Contents (Elt Ideal)) :
    Cert.ReferenceIdeal.ReadP.val_main_v63 (F := Ideal) x0 x1 x2 = fun _ => lossR x0 x1 x2 := by
  funext i
  rw [ReadP.val_main_v63_apply, ReadP.val_main_v62_apply, ReadP.val_main_v61_apply, ReadP.val_main_cst_17_apply,
    ReadP.val_main_cst_16_apply, v12_eq]
  simp only [v60_eq]
  rfl

end Cert.ReferenceIdeal.RV

end
-- ==== Proof.Pre.lean ====
/-
  The precondition read: every entry of the three arrays is a real number.

  The printed predicate is the conjunction of three all-reductions of |a| < +∞; each says that no entry is an infinity.
-/
import proofs.«426658_j61873298866306_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Ghm

open Idealize.ShloMosaic

/-- An extended real whose absolute value, max(x, −x), lies strictly below +∞ is neither infinity: it is a real. -/
private theorem real_of_abs_lt (x : EReal)
    (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => exact absurd h (by simp [Ideal.cmp])
  | top => exact absurd h (by simp [Ideal.cmp])
  | coe r => exact ⟨r, rfl⟩

theorem real_of_pre [Cert.Pre_finite_inputs.Facts]
    (a0 a1 a2 : FVec Ideal Cert.Pre_finite_inputs.S16384x1000 .f32)
    (h : Cert.Pre_finite_inputs.fn (F := Ideal) a0 a1 a2 = fun _ => 1#1) :
    (∀ e, ∃ r : ℝ, a0 e = (r : EReal)) ∧ (∀ e, ∃ r : ℝ, a1 e = (r : EReal)) ∧ (∀ e, ∃ r : ℝ, a2 e = (r : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun e => real_of_abs_lt _ (Host.reduce_andi_all _ _ _ _ _ h0' e),
    fun e => real_of_abs_lt _ (Host.reduce_andi_all _ _ _ _ _ h1 e),
    fun e => real_of_abs_lt _ (Host.reduce_andi_all _ _ _ _ _ h2 e)⟩

end Cert.Ghm

end
-- ==== Proof.lean ====
/-
  The gradient-harmonised classification loss: a fused kernel against its jnp reference, over the extended reals.

  Both programs take logits x, targets t and label weights w of shape [16384, 1000]. An element is valid when
  w > 0; its bin is ⌊10·|σ(x) − t|⌋ clipped into 0 … 9. With c k the number of valid elements of bin k, S k the sum
  of their cross entropies softplus(x) − x·t, tot the number of valid elements (at least 1) and n the number of
  non-empty bins (at least 1), the reference weights every valid element by (tot / c) / n, sums weight · cross
  entropy and divides by tot. The kernel re-lays the arrays as [16000, 1024], cuts them into 2 × 10 tiles of 800
  rows, and in one pass accumulates per core the ten counts (32-bit integers) and the ten cross-entropy sums of its
  tiles, each tile's sums taken as a product with an all-ones column followed by a sum over the rows, the cross
  entropy split into a 16-bit high part and the residual; the host then adds the two cores' rows and returns
  (Σ over non-empty bins of S k / c k) / n. At the extended reals the narrowing to 16 bits is the identity, so the
  residual of a real cross entropy is zero; the counts stay below 2^31; tot cancels and the element sum regroups by
  bin. The frames are the generated ones; the reference's run is its generated operation list read back.
-/
import proofs.«426658_j61873298866306_3_alg».proof.Defs
import proofs.«426658_j61873298866306_3_alg».proof.Proof.Gen.Kernel
import proofs.«426658_j61873298866306_3_alg».proof.Proof.Gen.Kernel.Skeleton
import proofs.«426658_j61873298866306_3_alg».proof.Proof.Gen.Kernel.Launch
import proofs.«426658_j61873298866306_3_alg».proof.Proof.Gen.Kernel.Points
import proofs.«426658_j61873298866306_3_alg».proof.Proof.Gen.Kernel.Frame
import proofs.«426658_j61873298866306_3_alg».proof.Proof.Gen.KernelIdeal
import proofs.«426658_j61873298866306_3_alg».proof.Proof.Gen.KernelIdeal.Skeleton
import proofs.«426658_j61873298866306_3_alg».proof.Proof.Gen.KernelIdeal.Launch
import proofs.«426658_j61873298866306_3_alg».proof.Proof.Gen.KernelIdeal.Points
import proofs.«426658_j61873298866306_3_alg».proof.Proof.Gen.KernelIdeal.Frame
import proofs.«426658_j61873298866306_3_alg».proof.Proof.Gen.ReferenceIdeal
import proofs.«426658_j61873298866306_3_alg».proof.Proof.Gen.Pre_finite_inputs
import proofs.«426658_j61873298866306_3_alg».proof.Proof.RefRunP
import proofs.«426658_j61873298866306_3_alg».proof.Proof.RefReadP
import proofs.«426658_j61873298866306_3_alg».proof.Proof.KValue
import proofs.«426658_j61873298866306_3_alg».proof.Proof.RValue
import proofs.«426658_j61873298866306_3_alg».proof.Proof.Pre
import proofs.«426658_j61873298866306_3_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: widening a narrowed tile back is the identity at the extended reals. -/
theorem preserves : Cert.preserves_Kernel_KernelIdeal :=
  IdealRules.truncf_extf.statement Cert.KernelIdeal.S800x1024 .f32 .bf16

/-- Both programs end at one number: the kernel at the per-bin formula, the reference at the per-element formula,
    of argument arrays that agree and are real by the precondition. -/
theorem algebraic : Cert.algebraic_KernelIdeal_ReferenceIdeal := by
  intro m ρ m' ρ' hpre hagree
  have hr : ∀ c : Dev Cert.KernelIdeal.nD, _ := fun c => Cert.Ghm.real_of_pre _ _ _ (hpre c)
  refine ⟨fun c => fun _ => Cert.Ghm.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KV.run m ρ (fun c => (hr c).1) (fun c => (hr c).2.1), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v63_eq, Cert.ReferenceIdeal.RV.ref_value, (hagree c).1, (hagree c).2.1, (hagree c).2.2]
  funext _
  exact (Cert.Ghm.lossK_eq_lossR _ _ _ (hr c).1 (hr c).2.1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
